-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x48x48 : Shape := ⟨4, ![32, 512, 48, 48]⟩
abbrev S1x512x1x1 : Shape := ⟨4, ![1, 512, 1, 1]⟩
abbrev S_ : Shape := ⟨0, ![]⟩

class Facts : Prop where
  bcast_S_S32x512x48x48 : S_.BroadcastsInDim S32x512x48x48 (![] : Fin 0 → Fin S32x512x48x48.rank)
  reducesTo_S32x512x48x48_S_d0_1_2_3 : S32x512x48x48.ReducesTo [0, 1, 2, 3] S_
  h_S_ : 0 < S_.numel
  bcast_S_S1x512x1x1 : S_.BroadcastsInDim S1x512x1x1 (![] : Fin 0 → Fin S1x512x1x1.rank)
  reducesTo_S1x512x1x1_S_d0_1_2_3 : S1x512x1x1.ReducesTo [0, 1, 2, 3] S_

variable [Facts]

def fn {F : FTy → Type} [FloatOps F] (main_arg0 : FVec F S32x512x48x48 .f32) (main_arg1 : FVec F S1x512x1x1 .f32) (main_arg2 : FVec F S1x512x1x1 .f32) : IVec S_ 1 :=
  let main_v0 : FVec F S32x512x48x48 .f32 := Host.absf main_arg0
  let main_cst : FVec F S_ .f32 := constant S_ .f32 0x7F800000#32
  let main_v1 : FVec F S32x512x48x48 .f32 := broadcastInDim S32x512x48x48 ![] bcast_S_S32x512x48x48 main_cst
  let main_v2 : IVec S32x512x48x48 1 := cmpf .olt main_v0 main_v1
  let main_c : IVec S_ 1 := constantI S_ 1 1#1
  let main_v3 : IVec S_ 1 := (fun x v => Host.reduce IntOp.andi x v reducesTo_S32x512x48x48_S_d0_1_2_3 h_S_) main_v2 main_c
  let main_v4 : FVec F S1x512x1x1 .f32 := Host.absf main_arg1
  let main_cst_0 : FVec F S_ .f32 := constant S_ .f32 0x7F800000#32
  let main_v5 : FVec F S1x512x1x1 .f32 := broadcastInDim S1x512x1x1 ![] bcast_S_S1x512x1x1 main_cst_0
  let main_v6 : IVec S1x512x1x1 1 := cmpf .olt main_v4 main_v5
  let main_c_1 : IVec S_ 1 := constantI S_ 1 1#1
  let main_v7 : IVec S_ 1 := (fun x v => Host.reduce IntOp.andi x v reducesTo_S1x512x1x1_S_d0_1_2_3 h_S_) main_v6 main_c_1
  let main_v8 : IVec S_ 1 := andi main_v3 main_v7
  let main_v9 : FVec F S1x512x1x1 .f32 := Host.absf main_arg2
  let main_cst_2 : FVec F S_ .f32 := constant S_ .f32 0x7F800000#32
  let main_v10 : FVec F S1x512x1x1 .f32 := broadcastInDim S1x512x1x1 ![] bcast_S_S1x512x1x1 main_cst_2
  let main_v11 : IVec S1x512x1x1 1 := cmpf .olt main_v9 main_v10
  let main_c_3 : IVec S_ 1 := constantI S_ 1 1#1
  let main_v12 : IVec S_ 1 := (fun x v => Host.reduce IntOp.andi x v reducesTo_S1x512x1x1_S_d0_1_2_3 h_S_) main_v11 main_c_3
  let main_v13 : IVec S_ 1 := andi main_v8 main_v12
  main_v13
-- ==== Kernel.lean ====
abbrev S32x512x48x48 : Shape := ⟨4, ![32, 512, 48, 48]⟩
abbrev S1x512x1x1 : Shape := ⟨4, ![1, 512, 1, 1]⟩
abbrev S32x8x64x48x48 : Shape := ⟨5, ![32, 8, 64, 48, 48]⟩
abbrev S32x64x8x48x48 : Shape := ⟨5, ![32, 64, 8, 48, 48]⟩
abbrev S32x64x18432 : Shape := ⟨3, ![32, 64, 18432]⟩
abbrev S1x64x18432 : Shape := ⟨3, ![1, 64, 18432]⟩
abbrev S64x18432 : Shape := ⟨2, ![64, 18432]⟩
abbrev S64 : Shape := ⟨1, ![64]⟩
abbrev S64x1 : Shape := ⟨2, ![64, 1]⟩
abbrev S18432x64 : Shape := ⟨2, ![18432, 64]⟩
abbrev S64x64 : Shape := ⟨2, ![64, 64]⟩
abbrev S1 : Shape := ⟨1, ![1]⟩
abbrev S1x1 : Shape := ⟨2, ![1, 1]⟩

abbrev nBuf : Space → Nat
  | .hbm => 14
  | .vmem => 4
  | .smem => 0
  | _ => 0

abbrev bufTy : (tb : Table) → Fin (tcTables nBuf tb) → BufTy
  | .hbm, ⟨0, _⟩ => ⟨S32x512x48x48, .f32⟩
  | .hbm, ⟨1, _⟩ => ⟨S1x512x1x1, .f32⟩
  | .hbm, ⟨2, _⟩ => ⟨S1x512x1x1, .f32⟩
  | .hbm, ⟨3, _⟩ => ⟨S32x8x64x48x48, .f32⟩
  | .hbm, ⟨4, _⟩ => ⟨S32x64x8x48x48, .f32⟩
  | .hbm, ⟨5, _⟩ => ⟨S32x64x18432, .f32⟩
  | .hbm, ⟨6, _⟩ => ⟨S32x64x18432, .f32⟩
  | .hbm, ⟨7, _⟩ => ⟨S32x64x8x48x48, .f32⟩
  | .hbm, ⟨8, _⟩ => ⟨S32x8x64x48x48, .f32⟩
  | .hbm, ⟨9, _⟩ => ⟨S32x512x48x48, .f32⟩
  | .hbm, ⟨10, _⟩ => ⟨S32x512x48x48, .f32⟩
  | .hbm, ⟨11, _⟩ => ⟨S32x512x48x48, .f32⟩
  | .hbm, ⟨12, _⟩ => ⟨S32x512x48x48, .f32⟩
  | .hbm, ⟨13, _⟩ => ⟨S32x512x48x48, .f32⟩
  | .local _ .vmem, ⟨0, _⟩ => ⟨S1x64x18432, .f32⟩
  | .local _ .vmem, ⟨1, _⟩ => ⟨S1x64x18432, .f32⟩
  | .local _ .vmem, ⟨2, _⟩ => ⟨S1x64x18432, .f32⟩
  | .local _ .vmem, ⟨3, _⟩ => ⟨S1x64x18432, .f32⟩
  | _, _ => ⟨S32x512x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x18432 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x18432 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x512x48x48_S32x8x64x48x48 : S32x512x48x48.ShapeCasts S32x8x64x48x48
  transposes_S32x8x64x48x48_S32x64x8x48x48_0_2_1_3_4 : S32x8x64x48x48.Transposes [0, 2, 1, 3, 4] S32x64x8x48x48
  shapeCasts_S32x64x8x48x48_S32x64x18432 : S32x64x8x48x48.ShapeCasts S32x64x18432
  inb_S1x64x18432_S1x64x18432_0_0_0 : ∀ a, (![0, 0, 0] : Fin 3 → Nat) a + S1x64x18432.size a ≤ S1x64x18432.size a
  h_S1x64x18432 : 0 < S1x64x18432.numel
  shapeCasts_S1x64x18432_S64x18432 : S1x64x18432.ShapeCasts S64x18432
  reduces_S64x18432_S64 : S64x18432.Reduces [1] S64
  shapeCasts_S64_S64x1 : S64.ShapeCasts S64x1
  broadcasts_S64x1_S64x18432 : S64x1.Broadcasts S64x18432
  bitsLt_bf16_f32 : FTy.bits .bf16 < FTy.bits .f32
  transposes_S64x18432_p1_0_S18432x64 : S64x18432.Transposes [1, 0] S18432x64
  iota_S64x64_d0_w32 : S64x64.Iotas .tc 32 [0]
  iota_S64x64_d1_w32 : S64x64.Iotas .tc 32 [1]
  natLt_1_32 : 1 < 32
  reduces_S64x64_S64 : S64x64.Reduces [1] S64
  reduces_S64x1_S1 : S64x1.Reduces [0] S1
  shapeCasts_S1_S1x1 : S1.ShapeCasts S1x1
  broadcasts_S1x1_S64x64 : S1x1.Broadcasts S64x64
  shapeCasts_S64x18432_S1x64x18432 : S64x18432.ShapeCasts S1x64x18432
  shapeCasts_S32x64x18432_S32x64x8x48x48 : S32x64x18432.ShapeCasts S32x64x8x48x48
  transposes_S32x64x8x48x48_S32x8x64x48x48_0_2_1_3_4 : S32x64x8x48x48.Transposes [0, 2, 1, 3, 4] S32x8x64x48x48
  shapeCasts_S32x8x64x48x48_S32x512x48x48 : S32x8x64x48x48.ShapeCasts S32x512x48x48
  bcast_S1x512x1x1_S32x512x48x48_0_1_2_3 : S1x512x1x1.BroadcastsInDim S32x512x48x48 (![0, 1, 2, 3] : Fin 4 → Fin S32x512x48x48.rank)
  dot_S64x18432_S18432x64_S64x64_1_0_0_1_n_n_wf : DotDims.WF S64x18432 S18432x64 S64x64 [1] [0] [0] [1] [] []
  dot_S64x64_S64x64_S64x64_1_0_0_1_n_n_wf : DotDims.WF S64x64 S64x64 S64x64 [1] [0] [0] [1] [] []
  dot_S64x64_S64x18432_S64x18432_1_0_0_1_n_n_wf : DotDims.WF S64x64 S64x18432 S64x18432 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x18432.size a ≤ S32x64x18432.size a
  hwx0_0 : ∀ i : grid0.Coords, EltTy.bits .f32 = 32 ∨ (Rect.block (s := S32x64x18432) S1x64x18432.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x18432.size a ≤ S32x64x18432.size a
  hwx0_1 : ∀ i : grid0.Coords, EltTy.bits .f32 = 32 ∨ (Rect.block (s := S32x64x18432) S1x64x18432.size (cc0_transform_1 i) (hinb0_1 i)).WholeWords (EltTy.packing .f32)

variable [Facts₀]

def dot_S64x18432_S18432x64_S64x64_1_0_0_1_n_n : DotDims S64x18432 S18432x64 S64x64 where
  lhsContracting := [1]
  rhsContracting := [0]
  lhsNonContracting := [0]
  rhsNonContracting := [1]
  lhsBatch := []
  rhsBatch := []
  wf := dot_S64x18432_S18432x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x18432_S64x18432_1_0_0_1_n_n : DotDims S64x64 S64x18432 S64x18432 where
  lhsContracting := [1]
  rhsContracting := [0]
  lhsNonContracting := [0]
  rhsNonContracting := [1]
  lhsBatch := []
  rhsBatch := []
  wf := dot_S64x64_S64x18432_S64x18432_1_0_0_1_n_n_wf

abbrev win0_0 : Pipeline.Window sig grid0 :=
  Pipeline.Window.ofSpec (Memref.whole main_v2) S1x64x18432.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x64x18432.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x512x48x48 : Shape := ⟨4, ![32, 512, 48, 48]⟩
abbrev S1x512x1x1 : Shape := ⟨4, ![1, 512, 1, 1]⟩
abbrev S32x8x64x48x48 : Shape := ⟨5, ![32, 8, 64, 48, 48]⟩
abbrev S32x64x8x48x48 : Shape := ⟨5, ![32, 64, 8, 48, 48]⟩
abbrev S32x64x18432 : Shape := ⟨3, ![32, 64, 18432]⟩
abbrev S_ : Shape := ⟨0, ![]⟩
abbrev S32x64 : Shape := ⟨2, ![32, 64]⟩
abbrev S32x64x1 : Shape := ⟨3, ![32, 64, 1]⟩
abbrev S32x64x64 : Shape := ⟨3, ![32, 64, 64]⟩
abbrev S64x64 : Shape := ⟨2, ![64, 64]⟩
abbrev S1x64x64 : Shape := ⟨3, ![1, 64, 64]⟩
abbrev S32 : Shape := ⟨1, ![32]⟩
abbrev S32x1x1 : Shape := ⟨3, ![32, 1, 1]⟩

abbrev nBuf : Space → Nat
  | .hbm => 168
  | .vmem => 0
  | .smem => 0
  | _ => 0

abbrev hbmTy0_0 (i : Nat) : BufTy := match i % 128 with
  | 0 => ⟨S32x512x48x48, .f32⟩
  | 1 => ⟨S1x512x1x1, .f32⟩
  | 2 => ⟨S1x512x1x1, .f32⟩
  | 3 => ⟨S32x8x64x48x48, .f32⟩
  | 4 => ⟨S32x64x8x48x48, .f32⟩
  | 5 => ⟨S32x64x18432, .f32⟩
  | 6 => ⟨S_, .f32⟩
  | 7 => ⟨S32x64, .f32⟩
  | 8 => ⟨S32x64x1, .f32⟩
  | 9 => ⟨S_, .f32⟩
  | 10 => ⟨S32x64x1, .f32⟩
  | 11 => ⟨S32x64x1, .f32⟩
  | 12 => ⟨S32x64x18432, .f32⟩
  | 13 => ⟨S32x64x18432, .f32⟩
  | 14 => ⟨S32x64x64, .f32⟩
  | 15 => ⟨S_, .f32⟩
  | 16 => ⟨S32x64x64, .f32⟩
  | 17 => ⟨S32x64x64, .f32⟩
  | 18 => ⟨S64x64, .i32⟩
  | 19 => ⟨S64x64, .i32⟩
  | 20 => ⟨S_, .i32⟩
  | 21 => ⟨S64x64, .i32⟩
  | 22 => ⟨S64x64, .i32⟩
  | 23 => ⟨S64x64, .i1⟩
  | 24 => ⟨S64x64, .f32⟩
  | 25 => ⟨S_, .f32⟩
  | 26 => ⟨S64x64, .f32⟩
  | 27 => ⟨S64x64, .f32⟩
  | 28 => ⟨S1x64x64, .f32⟩
  | 29 => ⟨S32x64x64, .f32⟩
  | 30 => ⟨S32x64x64, .f32⟩
  | 31 => ⟨S32x64x64, .f32⟩
  | 32 => ⟨S_, .f32⟩
  | 33 => ⟨S32, .f32⟩
  | 34 => ⟨S32x1x1, .f32⟩
  | 35 => ⟨S32x1x1, .f32⟩
  | 36 => ⟨S32x64x64, .f32⟩
  | 37 => ⟨S32x64x64, .f32⟩
  | 38 => ⟨S64x64, .i32⟩
  | 39 => ⟨S64x64, .i32⟩
  | 40 => ⟨S_, .i32⟩
  | 41 => ⟨S64x64, .i32⟩
  | 42 => ⟨S64x64, .i32⟩
  | 43 => ⟨S64x64, .i1⟩
  | 44 => ⟨S64x64, .f32⟩
  | 45 => ⟨S1x64x64, .f32⟩
  | 46 => ⟨S32x64x64, .f32⟩
  | 47 => ⟨S_, .f32⟩
  | 48 => ⟨S1x64x64, .f32⟩
  | 49 => ⟨S1x64x64, .f32⟩
  | 50 => ⟨S32x64x64, .f32⟩
  | 51 => ⟨S32x64x64, .f32⟩
  | 52 => ⟨S32x64x64, .f32⟩
  | 53 => ⟨S_, .f32⟩
  | 54 => ⟨S32x64x64, .f32⟩
  | 55 => ⟨S32x64x64, .f32⟩
  | 56 => ⟨S32x64x64, .f32⟩
  | 57 => ⟨S32x64x64, .f32⟩
  | 58 => ⟨S_, .f32⟩
  | 59 => ⟨S1x64x64, .f32⟩
  | 60 => ⟨S1x64x64, .f32⟩
  | 61 => ⟨S32x64x64, .f32⟩
  | 62 => ⟨S32x64x64, .f32⟩
  | 63 => ⟨S32x64x64, .f32⟩
  | 64 => ⟨S_, .f32⟩
  | 65 => ⟨S32x64x64, .f32⟩
  | 66 => ⟨S32x64x64, .f32⟩
  | 67 => ⟨S32x64x64, .f32⟩
  | 68 => ⟨S32x64x64, .f32⟩
  | 69 => ⟨S_, .f32⟩
  | 70 => ⟨S1x64x64, .f32⟩
  | 71 => ⟨S1x64x64, .f32⟩
  | 72 => ⟨S32x64x64, .f32⟩
  | 73 => ⟨S32x64x64, .f32⟩
  | 74 => ⟨S32x64x64, .f32⟩
  | 75 => ⟨S_, .f32⟩
  | 76 => ⟨S32x64x64, .f32⟩
  | 77 => ⟨S32x64x64, .f32⟩
  | 78 => ⟨S32x64x64, .f32⟩
  | 79 => ⟨S32x64x64, .f32⟩
  | 80 => ⟨S_, .f32⟩
  | 81 => ⟨S1x64x64, .f32⟩
  | 82 => ⟨S1x64x64, .f32⟩
  | 83 => ⟨S32x64x64, .f32⟩
  | 84 => ⟨S32x64x64, .f32⟩
  | 85 => ⟨S32x64x64, .f32⟩
  | 86 => ⟨S_, .f32⟩
  | 87 => ⟨S32x64x64, .f32⟩
  | 88 => ⟨S32x64x64, .f32⟩
  | 89 => ⟨S32x64x64, .f32⟩
  | 90 => ⟨S32x64x64, .f32⟩
  | 91 => ⟨S_, .f32⟩
  | 92 => ⟨S1x64x64, .f32⟩
  | 93 => ⟨S1x64x64, .f32⟩
  | 94 => ⟨S32x64x64, .f32⟩
  | 95 => ⟨S32x64x64, .f32⟩
  | 96 => ⟨S32x64x64, .f32⟩
  | 97 => ⟨S_, .f32⟩
  | 98 => ⟨S32x64x64, .f32⟩
  | 99 => ⟨S32x64x64, .f32⟩
  | 100 => ⟨S32x64x64, .f32⟩
  | 101 => ⟨S32x64x64, .f32⟩
  | 102 => ⟨S_, .f32⟩
  | 103 => ⟨S1x64x64, .f32⟩
  | 104 => ⟨S1x64x64, .f32⟩
  | 105 => ⟨S32x64x64, .f32⟩
  | 106 => ⟨S32x64x64, .f32⟩
  | 107 => ⟨S32x64x64, .f32⟩
  | 108 => ⟨S_, .f32⟩
  | 109 => ⟨S32x64x64, .f32⟩
  | 110 => ⟨S32x64x64, .f32⟩
  | 111 => ⟨S32x64x64, .f32⟩
  | 112 => ⟨S32x64x64, .f32⟩
  | 113 => ⟨S_, .f32⟩
  | 114 => ⟨S1x64x64, .f32⟩
  | 115 => ⟨S1x64x64, .f32⟩
  | 116 => ⟨S32x64x64, .f32⟩
  | 117 => ⟨S32x64x64, .f32⟩
  | 118 => ⟨S32x64x64, .f32⟩
  | 119 => ⟨S_, .f32⟩
  | 120 => ⟨S32x64x64, .f32⟩
  | 121 => ⟨S32x64x64, .f32⟩
  | 122 => ⟨S32x64x64, .f32⟩
  | 123 => ⟨S32x64x64, .f32⟩
  | 124 => ⟨S_, .f32⟩
  | 125 => ⟨S1x64x64, .f32⟩
  | 126 => ⟨S1x64x64, .f32⟩
  | 127 => ⟨S32x64x64, .f32⟩
  | _ => ⟨S32x512x48x48, .f32⟩

abbrev hbmTy0_1 (i : Nat) : BufTy := match i % 128 with
  | 0 => ⟨S32x64x64, .f32⟩
  | 1 => ⟨S32x64x64, .f32⟩
  | 2 => ⟨S_, .f32⟩
  | 3 => ⟨S32x64x64, .f32⟩
  | 4 => ⟨S32x64x64, .f32⟩
  | 5 => ⟨S32x64x64, .f32⟩
  | 6 => ⟨S32x64x64, .f32⟩
  | 7 => ⟨S_, .f32⟩
  | 8 => ⟨S1x64x64, .f32⟩
  | 9 => ⟨S1x64x64, .f32⟩
  | 10 => ⟨S32x64x64, .f32⟩
  | 11 => ⟨S32x64x64, .f32⟩
  | 12 => ⟨S32x64x64, .f32⟩
  | 13 => ⟨S_, .f32⟩
  | 14 => ⟨S32x64x64, .f32⟩
  | 15 => ⟨S32x64x64, .f32⟩
  | 16 => ⟨S32x64x64, .f32⟩
  | 17 => ⟨S32x64x64, .f32⟩
  | 18 => ⟨S_, .f32⟩
  | 19 => ⟨S1x64x64, .f32⟩
  | 20 => ⟨S1x64x64, .f32⟩
  | 21 => ⟨S32x64x64, .f32⟩
  | 22 => ⟨S32x64x64, .f32⟩
  | 23 => ⟨S32x64x64, .f32⟩
  | 24 => ⟨S_, .f32⟩
  | 25 => ⟨S32x64x64, .f32⟩
  | 26 => ⟨S32x64x64, .f32⟩
  | 27 => ⟨S32x64x64, .f32⟩
  | 28 => ⟨S32x64x64, .f32⟩
  | 29 => ⟨S32x1x1, .f32⟩
  | 30 => ⟨S32x64x64, .f32⟩
  | 31 => ⟨S32x64x64, .f32⟩
  | 32 => ⟨S32x64x18432, .f32⟩
  | 33 => ⟨S32x64x8x48x48, .f32⟩
  | 34 => ⟨S32x8x64x48x48, .f32⟩
  | 35 => ⟨S32x512x48x48, .f32⟩
  | 36 => ⟨S32x512x48x48, .f32⟩
  | 37 => ⟨S32x512x48x48, .f32⟩
  | 38 => ⟨S32x512x48x48, .f32⟩
  | 39 => ⟨S32x512x48x48, .f32⟩
  | _ => ⟨S32x512x48x48, .f32⟩

abbrev hbmTy (i : Nat) : BufTy := match i / 128 with
  | 0 => hbmTy0_0 i
  | 1 => hbmTy0_1 i
  | _ => ⟨S32x512x48x48, .f32⟩

abbrev bufTy : (tb : Table) → Fin (tcTables nBuf tb) → BufTy
  | .hbm, ⟨i, _⟩ => hbmTy i
  | _, _ => ⟨S32x512x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_11 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_12 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_13 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_14 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_15 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_16 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_17 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_18 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_19 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_20 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_21 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_22 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_23 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_24 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩

abbrev nD : Nat := 1
abbrev τ : Topo := Topo.v7x

variable {F : FTy → Type} [FloatOps F]

class Facts₀ : Prop where
  shapeCasts_S32x512x48x48_S32x8x64x48x48 : S32x512x48x48.ShapeCasts S32x8x64x48x48
  transposes_S32x8x64x48x48_S32x64x8x48x48_0_2_1_3_4 : S32x8x64x48x48.Transposes [0, 2, 1, 3, 4] S32x64x8x48x48
  shapeCasts_S32x64x8x48x48_S32x64x18432 : S32x64x8x48x48.ShapeCasts S32x64x18432
  reducesTo_S32x64x18432_S32x64_d2 : S32x64x18432.ReducesTo [2] S32x64
  h_S_ : 0 < S_.numel
  bcast_S32x64_S32x64x1_0_1 : S32x64.BroadcastsInDim S32x64x1 (![0, 1] : Fin 2 → Fin S32x64x1.rank)
  bcast_S_S32x64x1 : S_.BroadcastsInDim S32x64x1 (![] : Fin 0 → Fin S32x64x1.rank)
  bcast_S32x64x1_S32x64x18432_0_1_2 : S32x64x1.BroadcastsInDim S32x64x18432 (![0, 1, 2] : Fin 3 → Fin S32x64x18432.rank)
  bcast_S_S32x64x64 : S_.BroadcastsInDim S32x64x64 (![] : Fin 0 → Fin S32x64x64.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S32x64x64_0_1_2 : S1x64x64.BroadcastsInDim S32x64x64 (![0, 1, 2] : Fin 3 → Fin S32x64x64.rank)
  reducesTo_S32x64x64_S32_d1_2 : S32x64x64.ReducesTo [1, 2] S32
  bcast_S32_S32x1x1_0 : S32.BroadcastsInDim S32x1x1 (![0] : Fin 1 → Fin S32x1x1.rank)
  bcast_S32x1x1_S32x64x64_0_1_2 : S32x1x1.BroadcastsInDim S32x64x64 (![0, 1, 2] : Fin 3 → Fin S32x64x64.rank)
  bcast_S_S1x64x64 : S_.BroadcastsInDim S1x64x64 (![] : Fin 0 → Fin S1x64x64.rank)
  shapeCasts_S32x64x18432_S32x64x8x48x48 : S32x64x18432.ShapeCasts S32x64x8x48x48
  transposes_S32x64x8x48x48_S32x8x64x48x48_0_2_1_3_4 : S32x64x8x48x48.Transposes [0, 2, 1, 3, 4] S32x8x64x48x48
  shapeCasts_S32x8x64x48x48_S32x512x48x48 : S32x8x64x48x48.ShapeCasts S32x512x48x48
  bcast_S1x512x1x1_S32x512x48x48_0_1_2_3 : S1x512x1x1.BroadcastsInDim S32x512x48x48 (![0, 1, 2, 3] : Fin 4 → Fin S32x512x48x48.rank)
  dot_S32x64x18432_S32x64x18432_S32x64x64_2_2_1_1_0_0_wf : DotDims.WF S32x64x18432 S32x64x18432 S32x64x64 [2] [2] [1] [1] [0] [0]
  dot_S32x64x64_S32x64x64_S32x64x64_2_1_1_2_0_0_wf : DotDims.WF S32x64x64 S32x64x64 S32x64x64 [2] [1] [1] [2] [0] [0]
  dot_S32x64x64_S32x64x18432_S32x64x18432_2_1_1_2_0_0_wf : DotDims.WF S32x64x64 S32x64x18432 S32x64x18432 [2] [1] [1] [2] [0] [0]

variable [Facts₀]

def dot_S32x64x18432_S32x64x18432_S32x64x64_2_2_1_1_0_0 : DotDims S32x64x18432 S32x64x18432 S32x64x64 where
  lhsContracting := [2]
  rhsContracting := [2]
  lhsNonContracting := [1]
  rhsNonContracting := [1]
  lhsBatch := [0]
  rhsBatch := [0]
  wf := dot_S32x64x18432_S32x64x18432_S32x64x64_2_2_1_1_0_0_wf
def dot_S32x64x64_S32x64x64_S32x64x64_2_1_1_2_0_0 : DotDims S32x64x64 S32x64x64 S32x64x64 where
  lhsContracting := [2]
  rhsContracting := [1]
  lhsNonContracting := [1]
  rhsNonContracting := [2]
  lhsBatch := [0]
  rhsBatch := [0]
  wf := dot_S32x64x64_S32x64x64_S32x64x64_2_1_1_2_0_0_wf
def dot_S32x64x64_S32x64x18432_S32x64x18432_2_1_1_2_0_0 : DotDims S32x64x64 S32x64x18432 S32x64x18432 where
  lhsContracting := [2]
  rhsContracting := [1]
  lhsNonContracting := [1]
  rhsNonContracting := [2]
  lhsBatch := [0]
  rhsBatch := [0]
  wf := dot_S32x64x64_S32x64x18432_S32x64x18432_2_1_1_2_0_0_wf

class Facts : Prop extends Facts₀ where

variable [Facts]
-- ==== Proof.Spec.lean ====
/-
  The whitening of one batch entry, written once as a function on extended reals.

  A batch entry is a 64 × 18432 block `X` (64 channel groups, each flattened to 18432 entries).
  Each row is centred by its mean; the 64 × 64 covariance of the centred rows gets `ε` on its diagonal;
  its inverse square root is approximated by ten Newton–Schulz steps started from the covariance divided
  by its Frobenius norm; the result, divided by the square root of that norm, multiplies the centred block.

  Sums are finite sums of extended reals (a commutative monoid: no infinity is ever cancelled), the
  quotient and the square root are the ideal ones, and the four float literals stay as their words:
  the same word stands on both sides of every equation proved against this file.
-/
import Idealize.ShloMosaic.PureOps.Ideal
import Idealize.ShloMosaic.Lib.ValueIdx

noncomputable section

namespace Cert.Whiten

open Idealize.ShloMosaic Idealize.ShloMosaic.ValueIdx

/-- A 64 × 64 matrix of extended reals. -/
abbrev Mat := Fin 64 → Fin 64 → EReal
/-- One batch entry: 64 rows of 18432 entries. -/
abbrev Blk := Fin 64 → Fin 18432 → EReal

/-- The row length 18432 as the float both programs divide by. -/
def cM : EReal := Ideal.ofBits .f32 0x46900000#32
/-- The diagonal loading `ε` (the float nearest 1e-5). -/
def cEps : EReal := Ideal.ofBits .f32 0x3727C5AC#32
/-- The float 3. -/
def c3 : EReal := Ideal.ofBits .f32 0x40400000#32
/-- The float 1/2. -/
def cHalf : EReal := Ideal.ofBits .f32 0x3F000000#32

/-- The identity matrix. -/
def eye : Mat := fun i j => if i = j then 1 else 0

/-- The matrix product. -/
def mm (A B : Mat) : Mat := fun i j => ∑ k : Fin 64, A i k * B k j

/-- Each row minus its mean (the row sum over 18432). -/
def centre (X : Blk) : Blk := fun g p => X g p - Ideal.div (∑ q : Fin 18432, X g q) cM

/-- The covariance of the centred rows with `ε` added on the diagonal. -/
def cov (Xc : Blk) : Mat := fun g h => Ideal.div (∑ p : Fin 18432, Xc g p * Xc h p) cM + cEps * eye g h

/-- The Frobenius norm. -/
def nrm (A : Mat) : EReal := Ideal.sqrt (∑ i : Fin 64, ∑ j : Fin 64, A i j * A i j)

/-- The Newton–Schulz correction `T = (3 I − Z Y) / 2`. -/
def tee (Z Y : Mat) : Mat := fun i j => cHalf * (c3 * eye i j - mm Z Y i j)

/-- One Newton–Schulz step on the pair `(Y, Z)`: `Y ↦ Y T`, `Z ↦ T Z`. -/
def step (s : Mat × Mat) : Mat × Mat := (mm s.1 (tee s.2 s.1), mm (tee s.2 s.1) s.2)

/-- The start `(A / ‖A‖, I)`. -/
def start (A : Mat) : Mat × Mat := (fun i j => Ideal.div (A i j) (nrm A), eye)

/-- The pair after `k` steps. -/
def iter (A : Mat) : ℕ → Mat × Mat
  | 0 => start A
  | k + 1 => step (iter A k)

theorem iter_zero (A : Mat) : iter A 0 = start A := rfl
theorem iter_succ (A : Mat) (k : ℕ) : iter A (k + 1) = step (iter A k) := rfl

/-- `step` applied `k` times. -/
def steps : ℕ → Mat × Mat → Mat × Mat
  | 0, s => s
  | k + 1, s => step (steps k s)

theorem steps_zero (s : Mat × Mat) : steps 0 s = s := rfl
theorem steps_succ (k : ℕ) (s : Mat × Mat) : steps (k + 1) s = step (steps k s) := rfl

theorem steps_iter (A : Mat) (j k : ℕ) : steps j (iter A k) = iter A (k + j) := by
  induction j with
  | zero => rfl
  | succ j ih => rw [steps_succ, ih]; rfl

/-- The approximate inverse square root after ten steps, rescaled. -/
def decorr (A : Mat) : Mat := fun i j => Ideal.div ((iter A 10).2 i j) (Ideal.sqrt (nrm A))

/-- The whitened block. -/
def whiten (X : Blk) : Blk :=
  fun g p => ∑ h : Fin 64, decorr (cov (centre X)) g h * centre X h p

/-- The whitening of every batch entry of a 32 × 64 × 18432 array. -/
def whitenAll (X : (⟨3, ![32, 64, 18432]⟩ : Shape).Idx → EReal) : (⟨3, ![32, 64, 18432]⟩ : Shape).Idx → EReal :=
  fun i => whiten (fun g p => X (ix3 (i 0) g p)) (i 1) (i 2)

theorem whitenAll_apply (X : (⟨3, ![32, 64, 18432]⟩ : Shape).Idx → EReal) (n : Fin 32) (g : Fin 64) (p : Fin 18432) :
    whitenAll X (ix3 n g p) = whiten (fun g p => X (ix3 n g p)) g p := rfl

end Cert.Whiten

end
-- ==== Proof.KOps.lean ====
/-
  Shared facts about the kernel's body values at the extended reals: a grid point's block read as 64 rows,
  and a 64 × 64 matrix product into a zero accumulator read at an entry.
-/
import proofs.«120856_j2628519985843_1_alg».proof.Proof.Gen.KernelIdeal
import proofs.«120856_j2628519985843_1_alg».proof.Proof.Spec
import Idealize.ShloMosaic.PureOps.Ideal.Laws
import Idealize.ShloMosaic.Lib.ValueIdx

noncomputable section

namespace Cert.KernelIdeal.Blk

open Idealize.ShloMosaic Idealize.ShloMosaic.ValueIdx Cert.KernelIdeal Cert.Whiten

/-- The 1 × 64 × 18432 block a grid point loads, as 64 rows of 18432 entries. -/
def rows (v0 : Vec Ideal S1x64x18432 .f32) : Blk := fun g p => v0 (ix3 (0 : Fin 1) g p)

/-! ### The 64 × 64 product's operand indices: the left operand is read at (row, k), the right at (k, column) -/

theorem mm64_lhs_0 (j : S64x64.Idx) (k : dot_S64x64_S64x64_S64x64_1_0_0_1_n_n.contr.Idx) :
    (dot_S64x64_S64x64_S64x64_1_0_0_1_n_n.lhsIdx j k 0).val = (j 0).val := by
  unfold DotDims.lhsIdx
  rw [dif_neg (show ¬(0 : Fin S64x64.rank) ∈ dot_S64x64_S64x64_S64x64_1_0_0_1_n_n.lhsBatch by decide),
    dif_pos (show (0 : Fin S64x64.rank) ∈ dot_S64x64_S64x64_S64x64_1_0_0_1_n_n.lhsNonContracting by decide)]
  rfl

theorem mm64_lhs_1 (j : S64x64.Idx) (k : dot_S64x64_S64x64_S64x64_1_0_0_1_n_n.contr.Idx) :
    (dot_S64x64_S64x64_S64x64_1_0_0_1_n_n.lhsIdx j k 1).val = (k ⟨0, by decide⟩).val :=
  dot_S64x64_S64x64_S64x64_1_0_0_1_n_n.lhsIdx_val_of_single rfl j k

theorem mm64_rhs_0 (j : S64x64.Idx) (k : dot_S64x64_S64x64_S64x64_1_0_0_1_n_n.contr.Idx) :
    (dot_S64x64_S64x64_S64x64_1_0_0_1_n_n.rhsIdx j k 0).val = (k ⟨0, by decide⟩).val :=
  dot_S64x64_S64x64_S64x64_1_0_0_1_n_n.rhsIdx_val_of_single rfl j k

theorem mm64_rhs_1 (j : S64x64.Idx) (k : dot_S64x64_S64x64_S64x64_1_0_0_1_n_n.contr.Idx) :
    (dot_S64x64_S64x64_S64x64_1_0_0_1_n_n.rhsIdx j k 1).val = (j 1).val := by
  unfold DotDims.rhsIdx
  rw [dif_neg (show ¬(1 : Fin S64x64.rank) ∈ dot_S64x64_S64x64_S64x64_1_0_0_1_n_n.rhsBatch by decide),
    dif_pos (show (1 : Fin S64x64.rank) ∈ dot_S64x64_S64x64_S64x64_1_0_0_1_n_n.rhsNonContracting by decide)]
  rfl

/-- A 64 × 64 matrix product into the zero accumulator, at entry (i, j): the sum over k of A i k · B k j. -/
theorem kmm_at (prec : Option ContractPrecision) (A B : FVec Ideal S64x64 .f32) (i j : Fin 64) :
    matmul dot_S64x64_S64x64_S64x64_1_0_0_1_n_n prec A B (constant S64x64 .f32 0x00000000#32) (ix2 i j)
      = ∑ k : Fin 64, A (ix2 i k) * B (ix2 k j) := by
  refine (Ideal.matmul_constant_zero_apply dot_S64x64_S64x64_S64x64_1_0_0_1_n_n prec A B (ix2 i j)).trans ?_
  rw [← Equiv.sum_comp (contrEquiv1 dot_S64x64_S64x64_S64x64_1_0_0_1_n_n 64 rfl rfl).symm]
  refine Finset.sum_congr rfl fun k _ => ?_
  have hk := contrEquiv1_symm_val dot_S64x64_S64x64_S64x64_1_0_0_1_n_n 64 rfl rfl k
  have hl : dot_S64x64_S64x64_S64x64_1_0_0_1_n_n.lhsIdx (ix2 i j)
      ((contrEquiv1 dot_S64x64_S64x64_S64x64_1_0_0_1_n_n 64 rfl rfl).symm k) = ix2 i k := by
    funext a
    match a with
    | ⟨0, _⟩ => exact Fin.ext (mm64_lhs_0 _ _)
    | ⟨1, _⟩ => exact Fin.ext ((mm64_lhs_1 _ _).trans hk)
  have hr : dot_S64x64_S64x64_S64x64_1_0_0_1_n_n.rhsIdx (ix2 i j)
      ((contrEquiv1 dot_S64x64_S64x64_S64x64_1_0_0_1_n_n 64 rfl rfl).symm k) = ix2 k j := by
    funext a
    match a with
    | ⟨0, _⟩ => exact Fin.ext ((mm64_rhs_0 _ _).trans hk)
    | ⟨1, _⟩ => exact Fin.ext (mm64_rhs_1 _ _)
  rw [hl, hr]

end Cert.KernelIdeal.Blk

end
-- ==== Proof.LibKeepdims.lean ====
/-
  Two layout facts for a reduction kept as a column: a length-`a` vector cast to an `a × 1` column reads, at
  row `p`, the vector at `p`; and an `a × 1` column broadcast to `a × b` reads, at `(p, c)`, the column at row `p`.
  Together they say that a row statistic (a row's sum, maximum, …) broadcast back over its row is that statistic
  at every column. Stated over literal rank-1 and rank-2 shapes with indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` array cast to `[a, 1]` reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.KPart1.lean ====
/-
  The first stretch of the kernel's body at the extended reals: the centred block, the identity matrix,
  the covariance and its Frobenius norm, the start of the iteration and its first step.
-/
import proofs.«120856_j2628519985843_1_alg».proof.Proof.Gen.KernelIdeal.Skeleton
import proofs.«120856_j2628519985843_1_alg».proof.Proof.KOps
import proofs.«120856_j2628519985843_1_alg».proof.Proof.LibKeepdims
import Idealize.ShloMosaic.Lib.ValueLayout

noncomputable section

namespace Cert.KernelIdeal.Blk

open Idealize.ShloMosaic Idealize.ShloMosaic.ValueIdx Cert.KernelIdeal Cert.KernelIdeal.Gen Cert.Whiten

open Cert.LibKeepdims

/-- The gram product's dimension numbers: contraction over the 18432 columns of the left operand and rows of the right. -/
private theorem gram_lhs_0 (j : S64x64.Idx) (k : dot_S64x18432_S18432x64_S64x64_1_0_0_1_n_n.contr.Idx) :
    (dot_S64x18432_S18432x64_S64x64_1_0_0_1_n_n.lhsIdx j k 0).val = (j 0).val := by
  unfold DotDims.lhsIdx
  rw [dif_neg (show ¬ (0 : Fin S64x18432.rank) ∈ dot_S64x18432_S18432x64_S64x64_1_0_0_1_n_n.lhsBatch by decide),
      dif_pos (show (0 : Fin S64x18432.rank) ∈ dot_S64x18432_S18432x64_S64x64_1_0_0_1_n_n.lhsNonContracting by decide)]
  rfl

private theorem gram_lhs_1 (j : S64x64.Idx) (k : dot_S64x18432_S18432x64_S64x64_1_0_0_1_n_n.contr.Idx) :
    (dot_S64x18432_S18432x64_S64x64_1_0_0_1_n_n.lhsIdx j k 1).val = (k ⟨0, by decide⟩).val :=
  dot_S64x18432_S18432x64_S64x64_1_0_0_1_n_n.lhsIdx_val_of_single rfl j k

private theorem gram_rhs_0 (j : S64x64.Idx) (k : dot_S64x18432_S18432x64_S64x64_1_0_0_1_n_n.contr.Idx) :
    (dot_S64x18432_S18432x64_S64x64_1_0_0_1_n_n.rhsIdx j k 0).val = (k ⟨0, by decide⟩).val :=
  dot_S64x18432_S18432x64_S64x64_1_0_0_1_n_n.rhsIdx_val_of_single rfl j k

private theorem gram_rhs_1 (j : S64x64.Idx) (k : dot_S64x18432_S18432x64_S64x64_1_0_0_1_n_n.contr.Idx) :
    (dot_S64x18432_S18432x64_S64x64_1_0_0_1_n_n.rhsIdx j k 1).val = (j 1).val := by
  unfold DotDims.rhsIdx
  rw [dif_neg (show ¬ (1 : Fin S18432x64.rank) ∈ dot_S64x18432_S18432x64_S64x64_1_0_0_1_n_n.rhsBatch by decide),
      dif_pos (show (1 : Fin S18432x64.rank) ∈ dot_S64x18432_S18432x64_S64x64_1_0_0_1_n_n.rhsNonContracting by decide)]
  rfl

/-- A 64 × 18432 by 18432 × 64 product into the zero accumulator, at entry (i, j): the sum over p of A i p · B p j. -/
private theorem bigmm_at {φ₁ φ₂ : FTy} (prec : Option ContractPrecision) (A : FVec Ideal S64x18432 φ₁) (B : FVec Ideal S18432x64 φ₂)
    (i j : Fin 64) :
    matmul dot_S64x18432_S18432x64_S64x64_1_0_0_1_n_n prec A B (constant S64x64 .f32 0x00000000#32) (ix2 i j)
      = ∑ p : Fin 18432, A (ix2 i p) * B (ix2 p j) := by
  refine (Ideal.matmul_constant_zero_apply dot_S64x18432_S18432x64_S64x64_1_0_0_1_n_n prec A B (ix2 i j)).trans ?_
  rw [← Equiv.sum_comp (contrEquiv1 dot_S64x18432_S18432x64_S64x64_1_0_0_1_n_n 18432 rfl rfl).symm]
  refine Finset.sum_congr rfl fun p _ => ?_
  have hk := contrEquiv1_symm_val dot_S64x18432_S18432x64_S64x64_1_0_0_1_n_n 18432 rfl rfl p
  congr 1
  · refine congrArg A (funext fun a => Fin.ext ?_)
    match a with
    | ⟨0, _⟩ => exact gram_lhs_0 _ _
    | ⟨1, _⟩ => exact (gram_lhs_1 _ _).trans hk
  · refine congrArg B (funext fun a => Fin.ext ?_)
    match a with
    | ⟨0, _⟩ => exact (gram_rhs_0 _ _).trans hk
    | ⟨1, _⟩ => exact gram_rhs_1 _ _

/-- A sum over axis 0 of an a × b matrix, at column c: the sum down the column. -/
private theorem laneSum0_at {a b : ℕ} {φ : FTy} (X : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ X acc h hφ hacc (ix1 c) = ∑ r : Fin a, X (ix2 r c) := by
  refine (Ideal.multiReduction_add_single X acc h hφ hacc (ix1 c)).trans ?_
  refine Finset.sum_congr rfl fun r _ => congrArg X ?_
  funext d
  match d with
  | ⟨0, _⟩ => exact Fin.ext rfl
  | ⟨1, _⟩ => exact Fin.ext rfl

/-- A lane sum over axis 1 of an a × b matrix, at row g: the sum over the row. -/
private theorem laneSum1_at {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (g : Fin a) :
    multiReduction .add [1] ⟨1, ![a]⟩ X acc h hφ hacc (ix1 g) = ∑ q : Fin b, X (ix2 g q) := by
  refine (Ideal.multiReduction_add_single X acc h hφ hacc (ix1 g)).trans ?_
  refine Finset.sum_congr rfl fun q _ => congrArg X ?_
  funext c
  match c with
  | ⟨0, _⟩ => exact Fin.ext rfl
  | ⟨1, _⟩ => exact Fin.ext rfl

/-- A 1 × 1 array broadcast to a × b reads its one entry everywhere. -/
private theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ =>
    show 0 = if (1 : ℕ) = 1 then 0 else p.val
    rw [if_pos rfl]
  | ⟨1, _⟩ =>
    show 0 = if (1 : ℕ) = 1 then 0 else c.val
    rw [if_pos rfl]

variable (v0 : Vec Ideal S1x64x18432 .f32)

/-- The centred block: each row minus its mean. -/
theorem pay1_at (g : Fin 64) (p : Fin 18432) : k0_pay1 v0 (ix2 g p) = centre (rows v0) g p := by
  have hs : multiReduction (F := Ideal) .add [1] S64 (shapeCast S64x18432 v0 shapeCasts_S1x64x18432_S64x18432) 0x00000000#32
      reduces_S64x18432_S64 (.inl rfl) rfl (ix1 g) = ∑ q : Fin 18432, rows v0 g q :=
    (laneSum1_at _ _ _ _ _ g).trans (Finset.sum_congr rfl fun q _ => shapeCast_1ab_ab_apply _ _ g q)
  unfold k0_pay1
  simp only [truncf_apply, subf_apply, shapeCast_1ab_ab_apply, broadcastTo_a1_ab_apply, divf_apply,
    shapeCast_a_a1_apply, broadcast_apply]
  rw [hs]
  rfl

/-- The identity matrix, made from two iotas and a compare. -/
theorem pay2_at (i j : Fin 64) : k0_pay2 (F := Ideal) (ix2 i j) = eye i j := by
  unfold k0_pay2
  rw [sitofp_apply, extui_apply]
  show FloatOps.sitofp (F := Ideal) .f32 ((IntOp.cmpi .eq (iota .tc S64x64 32 [0] iota_S64x64_d0_w32 (ix2 i j)) (iota .tc S64x64 32 [1] iota_S64x64_d1_w32 (ix2 i j))).setWidth 32) = _
  rw [iota_single_apply, iota_single_apply]
  show (((((IntOp.cmpi .eq (BitVec.ofNat 32 i.val) (BitVec.ofNat 32 j.val)).setWidth 32).toInt : ℝ)) : EReal) = if i = j then 1 else 0
  by_cases h : i = j
  · subst h
    rw [if_pos rfl, IntOp.cmpi_eq.mpr rfl]
    have h1 : ((1#1 : BitVec 1).setWidth 32).toInt = 1 := by decide
    rw [h1]; simp
  · have hne : BitVec.ofNat 32 i.val ≠ BitVec.ofNat 32 j.val := fun e => h (Fin.ext (by
      have e' := congrArg BitVec.toNat e
      simp only [BitVec.toNat_ofNat] at e'
      have := i.isLt; have := j.isLt; omega))
    rw [if_neg h, eq_zero_of_ne_one (fun e => hne (IntOp.cmpi_eq.mp e))]
    have h0 : ((0#1 : BitVec 1).setWidth 32).toInt = 0 := by decide
    rw [h0]; simp

/-- The covariance: the gram product of the centred block with its transpose, over 18432, plus ε on the diagonal. -/
private theorem pay3_at (i j : Fin 64) : k0_pay3 v0 (ix2 i j) = cov (centre (rows v0)) i j := by
  have hg : matmul dot_S64x18432_S18432x64_S64x64_1_0_0_1_n_n none (k0_pay1 v0)
        (transpose S18432x64 [1, 0] (k0_pay1 v0) transposes_S64x18432_p1_0_S18432x64) (constant S64x64 .f32 0x00000000#32) (ix2 i j)
      = ∑ p : Fin 18432, centre (rows v0) i p * centre (rows v0) j p :=
    (bigmm_at none _ _ i j).trans (Finset.sum_congr rfl fun p _ => by
      rw [transpose_ix2_apply, pay1_at, pay1_at])
  unfold k0_pay3
  simp only [addf_apply, divf_apply, mulf_apply, broadcast_apply]
  rw [hg, pay2_at]
  rfl

/-- The Frobenius norm of the covariance. -/
theorem pay4_at : k0_pay4 v0 (ix2 (0 : Fin 1) (0 : Fin 1)) = nrm (cov (centre (rows v0))) := by
  unfold k0_pay4 nrm
  refine congrArg Ideal.sqrt ?_
  refine (shapeCast_a_a1_apply _ _ (0 : Fin 1) (0 : Fin 1)).trans ?_
  refine (laneSum0_at _ _ _ _ _ (0 : Fin 1)).trans ?_
  refine Finset.sum_congr rfl fun r _ => ?_
  refine (shapeCast_a_a1_apply _ _ r (0 : Fin 1)).trans ?_
  refine (laneSum1_at _ _ _ _ _ r).trans ?_
  refine Finset.sum_congr rfl fun c _ => ?_
  rw [mulf_apply, pay3_at]

/-- The start of the iteration: the covariance divided by its Frobenius norm. -/
private theorem pay5_at (i j : Fin 64) : k0_pay5 v0 (ix2 i j) = (start (cov (centre (rows v0)))).1 i j := by
  unfold k0_pay5
  rw [divf_apply, broadcastTo_11_ab_apply, pay3_at, pay4_at]
  rfl

/-- The first correction T = (3 I − I · Y₀) / 2, the product with the identity kept as a product. -/
private theorem pay6_at (i j : Fin 64) :
    k0_pay6 v0 (ix2 i j) = tee eye (start (cov (centre (rows v0)))).1 i j := by
  have hm : matmul dot_S64x64_S64x64_S64x64_1_0_0_1_n_n (some .fp32) (k0_pay2 (F := Ideal)) (k0_pay5 v0)
        (constant S64x64 .f32 0x00000000#32) (ix2 i j) = mm eye (start (cov (centre (rows v0)))).1 i j :=
    (kmm_at _ _ _ i j).trans (Finset.sum_congr rfl fun k _ => by rw [pay2_at, pay5_at])
  unfold k0_pay6
  simp only [mulf_apply, subf_apply, broadcast_apply]
  rw [hm, pay2_at]
  rfl

/-- `Y` after the first step. -/
theorem pay7_at (i j : Fin 64) : k0_pay7 v0 (ix2 i j) = (iter (cov (centre (rows v0))) 1).1 i j := by
  unfold k0_pay7
  refine (kmm_at _ _ _ i j).trans ?_
  show _ = ∑ k : Fin 64, (start (cov (centre (rows v0)))).1 i k * tee eye (start (cov (centre (rows v0)))).1 k j
  exact Finset.sum_congr rfl fun k _ => by rw [pay5_at, pay6_at]

/-- `Z` after the first step. -/
theorem pay8_at (i j : Fin 64) : k0_pay8 v0 (ix2 i j) = (iter (cov (centre (rows v0))) 1).2 i j := by
  unfold k0_pay8
  refine (kmm_at _ _ _ i j).trans ?_
  show _ = ∑ k : Fin 64, tee eye (start (cov (centre (rows v0)))).1 i k * eye k j
  exact Finset.sum_congr rfl fun k _ => by rw [pay6_at, pay2_at]

/-- `3 I − Z Y` after the first step. -/
theorem pay9_at (i j : Fin 64) :
    k0_pay9 v0 (ix2 i j)
      = c3 * eye i j - mm (iter (cov (centre (rows v0))) 1).2 (iter (cov (centre (rows v0))) 1).1 i j := by
  have hm : matmul dot_S64x64_S64x64_S64x64_1_0_0_1_n_n (some .fp32) (k0_pay8 v0) (k0_pay7 v0)
        (constant S64x64 .f32 0x00000000#32) (ix2 i j)
      = mm (iter (cov (centre (rows v0))) 1).2 (iter (cov (centre (rows v0))) 1).1 i j :=
    (kmm_at _ _ _ i j).trans (Finset.sum_congr rfl fun k _ => by rw [pay8_at, pay7_at])
  unfold k0_pay9
  simp only [subf_apply, mulf_apply, broadcast_apply]
  rw [hm, pay2_at]
  rfl

end Cert.KernelIdeal.Blk

end
-- ==== Proof.KPart2.lean ====
/-
  The middle stretch of the kernel's body at the extended reals: five Newton–Schulz steps, from any pair
  (Y, Z) handed in together with 3 I − Z Y.
-/
import proofs.«120856_j2628519985843_1_alg».proof.Proof.Gen.KernelIdeal.Skeleton
import proofs.«120856_j2628519985843_1_alg».proof.Proof.KOps

noncomputable section

namespace Cert.KernelIdeal.Blk

open Idealize.ShloMosaic Idealize.ShloMosaic.ValueIdx Cert.KernelIdeal Cert.KernelIdeal.Gen Cert.Whiten

/-- A 64 × 64 product into the zero accumulator of two arrays that read entrywise as the matrices
`MA` and `MB` reads entrywise as the matrix product: the sum over k of MA i k · MB k j. -/
private theorem mm_at (prec : Option ContractPrecision) (A B : FVec Ideal S64x64 .f32) (MA MB : Mat)
    (hA : ∀ i j : Fin 64, A (ix2 i j) = MA i j) (hB : ∀ i j : Fin 64, B (ix2 i j) = MB i j)
    (i j : Fin 64) :
    matmul dot_S64x64_S64x64_S64x64_1_0_0_1_n_n prec A B (constant S64x64 .f32 0x00000000#32) (ix2 i j)
      = mm MA MB i j := by
  refine (kmm_at prec A B i j).trans ?_
  show ∑ k : Fin 64, A (ix2 i k) * B (ix2 k j) = ∑ k : Fin 64, MA i k * MB k j
  exact Finset.sum_congr rfl (fun k _ => by rw [hA, hB])

/-- One half times (three times an array reading as the identity, minus an array reading as the product
Z Y), read at an entry, is the Newton–Schulz correction ½ (3 I − Z Y). -/
private theorem tee_at (I P : FVec Ideal S64x64 .f32) (Z Y : Mat)
    (hI : ∀ i j : Fin 64, I (ix2 i j) = eye i j) (hP : ∀ i j : Fin 64, P (ix2 i j) = mm Z Y i j)
    (i j : Fin 64) :
    mulf (broadcast S64x64 (Scalar.ofBits .f32 0x3F000000#32 : Ideal .f32))
        (subf (mulf (broadcast S64x64 (Scalar.ofBits .f32 0x40400000#32 : Ideal .f32)) I) P) (ix2 i j)
      = tee Z Y i j := by
  show cHalf * (c3 * I (ix2 i j) - P (ix2 i j)) = cHalf * (c3 * eye i j - mm Z Y i j)
  rw [hI, hP]

/-- One Newton–Schulz step on arrays. If Y, Z read as the pair t and T reads as the correction
½ (3 I − Z Y) of t, then Y T and T Z read as the two halves of the next pair, and
½ (3 I − (T Z)(Y T)) reads as the next pair's correction. -/
private theorem ns_step (prec : Option ContractPrecision) (I Y Z T : FVec Ideal S64x64 .f32) (t : Mat × Mat)
    (hI : ∀ i j : Fin 64, I (ix2 i j) = eye i j)
    (hY : ∀ i j : Fin 64, Y (ix2 i j) = t.1 i j)
    (hZ : ∀ i j : Fin 64, Z (ix2 i j) = t.2 i j)
    (hT : ∀ i j : Fin 64, T (ix2 i j) = tee t.2 t.1 i j) :
    (∀ i j : Fin 64,
        matmul dot_S64x64_S64x64_S64x64_1_0_0_1_n_n prec Y T (constant S64x64 .f32 0x00000000#32) (ix2 i j)
          = (step t).1 i j) ∧
    (∀ i j : Fin 64,
        matmul dot_S64x64_S64x64_S64x64_1_0_0_1_n_n prec T Z (constant S64x64 .f32 0x00000000#32) (ix2 i j)
          = (step t).2 i j) ∧
    (∀ i j : Fin 64,
        mulf (broadcast S64x64 (Scalar.ofBits .f32 0x3F000000#32 : Ideal .f32))
          (subf (mulf (broadcast S64x64 (Scalar.ofBits .f32 0x40400000#32 : Ideal .f32)) I)
            (matmul dot_S64x64_S64x64_S64x64_1_0_0_1_n_n prec
              (matmul dot_S64x64_S64x64_S64x64_1_0_0_1_n_n prec T Z (constant S64x64 .f32 0x00000000#32))
              (matmul dot_S64x64_S64x64_S64x64_1_0_0_1_n_n prec Y T (constant S64x64 .f32 0x00000000#32))
              (constant S64x64 .f32 0x00000000#32))) (ix2 i j)
          = tee (step t).2 (step t).1 i j) := by
  have h1 : ∀ i j : Fin 64,
      matmul dot_S64x64_S64x64_S64x64_1_0_0_1_n_n prec Y T (constant S64x64 .f32 0x00000000#32) (ix2 i j)
        = (step t).1 i j := fun i j => mm_at prec Y T t.1 (tee t.2 t.1) hY hT i j
  have h2 : ∀ i j : Fin 64,
      matmul dot_S64x64_S64x64_S64x64_1_0_0_1_n_n prec T Z (constant S64x64 .f32 0x00000000#32) (ix2 i j)
        = (step t).2 i j := fun i j => mm_at prec T Z (tee t.2 t.1) t.2 hT hZ i j
  exact ⟨h1, h2, fun i j => tee_at I _ (step t).2 (step t).1 hI
    (fun a b => mm_at prec _ _ (step t).2 (step t).1 h2 h1 a b) i j⟩

variable (v17 v35 v36 v40 : FVec Ideal S64x64 .f32) (s : Mat × Mat)
  (hI : ∀ i j : Fin 64, v17 (ix2 i j) = eye i j)
  (hY : ∀ i j : Fin 64, v35 (ix2 i j) = s.1 i j)
  (hZ : ∀ i j : Fin 64, v36 (ix2 i j) = s.2 i j)
  (hR : ∀ i j : Fin 64, v40 (ix2 i j) = c3 * eye i j - mm s.2 s.1 i j)
include hI hY hZ hR

/-- The float 1/2 as the kernel's scalar argument. -/
local notation "cH" => (Scalar.ofBits FTy.f32 0x3F000000#32 : Ideal FTy.f32)

/-- The first correction: one half times the array handed in as 3 I − Z Y. -/
private theorem pay10_at (i j : Fin 64) :
    k0_pay10 v40 cH (ix2 i j) = tee s.2 s.1 i j := by
  unfold k0_pay10
  show cHalf * v40 (ix2 i j) = cHalf * (c3 * eye i j - mm s.2 s.1 i j)
  rw [hR]

/-! First step: from the pair s and its correction. -/

/-- Y T after one step. -/
private theorem pay11_at (i j : Fin 64) :
    k0_pay11 v35 v40 cH (ix2 i j) = (steps 1 s).1 i j := by
  unfold k0_pay11
  exact (ns_step (some .fp32) v17 v35 v36 (k0_pay10 v40 cH) s hI hY hZ
    (pay10_at v17 v35 v36 v40 s hI hY hZ hR)).1 i j

/-- T Z after one step. -/
private theorem pay12_at (i j : Fin 64) :
    k0_pay12 v36 v40 cH (ix2 i j) = (steps 1 s).2 i j := by
  unfold k0_pay12
  exact (ns_step (some .fp32) v17 v35 v36 (k0_pay10 v40 cH) s hI hY hZ
    (pay10_at v17 v35 v36 v40 s hI hY hZ hR)).2.1 i j

/-- The correction of the pair after one step. -/
private theorem pay13_at (i j : Fin 64) :
    k0_pay13 v17 v35 v36 v40 cH (ix2 i j) = tee (steps 1 s).2 (steps 1 s).1 i j := by
  unfold k0_pay13
  exact (ns_step (some .fp32) v17 v35 v36 (k0_pay10 v40 cH) s hI hY hZ
    (pay10_at v17 v35 v36 v40 s hI hY hZ hR)).2.2 i j

/-! Second step: from the pair after one step. -/

/-- Y T after two steps. -/
private theorem pay14_at (i j : Fin 64) :
    k0_pay14 v17 v35 v36 v40 cH (ix2 i j) = (steps 2 s).1 i j := by
  unfold k0_pay14
  exact (ns_step (some .fp32) v17 (k0_pay11 v35 v40 cH) (k0_pay12 v36 v40 cH)
    (k0_pay13 v17 v35 v36 v40 cH) (steps 1 s) hI
    (pay11_at v17 v35 v36 v40 s hI hY hZ hR) (pay12_at v17 v35 v36 v40 s hI hY hZ hR)
    (pay13_at v17 v35 v36 v40 s hI hY hZ hR)).1 i j

/-- T Z after two steps. -/
private theorem pay15_at (i j : Fin 64) :
    k0_pay15 v17 v35 v36 v40 cH (ix2 i j) = (steps 2 s).2 i j := by
  unfold k0_pay15
  exact (ns_step (some .fp32) v17 (k0_pay11 v35 v40 cH) (k0_pay12 v36 v40 cH)
    (k0_pay13 v17 v35 v36 v40 cH) (steps 1 s) hI
    (pay11_at v17 v35 v36 v40 s hI hY hZ hR) (pay12_at v17 v35 v36 v40 s hI hY hZ hR)
    (pay13_at v17 v35 v36 v40 s hI hY hZ hR)).2.1 i j

/-- The correction of the pair after two steps. -/
private theorem pay16_at (i j : Fin 64) :
    k0_pay16 v17 v35 v36 v40 cH (ix2 i j) = tee (steps 2 s).2 (steps 2 s).1 i j := by
  unfold k0_pay16
  exact (ns_step (some .fp32) v17 (k0_pay11 v35 v40 cH) (k0_pay12 v36 v40 cH)
    (k0_pay13 v17 v35 v36 v40 cH) (steps 1 s) hI
    (pay11_at v17 v35 v36 v40 s hI hY hZ hR) (pay12_at v17 v35 v36 v40 s hI hY hZ hR)
    (pay13_at v17 v35 v36 v40 s hI hY hZ hR)).2.2 i j

/-! Third step: from the pair after two steps. -/

/-- Y T after three steps. -/
private theorem pay17_at (i j : Fin 64) :
    k0_pay17 v17 v35 v36 v40 cH (ix2 i j) = (steps 3 s).1 i j := by
  unfold k0_pay17
  exact (ns_step (some .fp32) v17 (k0_pay14 v17 v35 v36 v40 cH) (k0_pay15 v17 v35 v36 v40 cH)
    (k0_pay16 v17 v35 v36 v40 cH) (steps 2 s) hI
    (pay14_at v17 v35 v36 v40 s hI hY hZ hR) (pay15_at v17 v35 v36 v40 s hI hY hZ hR)
    (pay16_at v17 v35 v36 v40 s hI hY hZ hR)).1 i j

/-- T Z after three steps. -/
private theorem pay18_at (i j : Fin 64) :
    k0_pay18 v17 v35 v36 v40 cH (ix2 i j) = (steps 3 s).2 i j := by
  unfold k0_pay18
  exact (ns_step (some .fp32) v17 (k0_pay14 v17 v35 v36 v40 cH) (k0_pay15 v17 v35 v36 v40 cH)
    (k0_pay16 v17 v35 v36 v40 cH) (steps 2 s) hI
    (pay14_at v17 v35 v36 v40 s hI hY hZ hR) (pay15_at v17 v35 v36 v40 s hI hY hZ hR)
    (pay16_at v17 v35 v36 v40 s hI hY hZ hR)).2.1 i j

/-- The correction of the pair after three steps. -/
private theorem pay19_at (i j : Fin 64) :
    k0_pay19 v17 v35 v36 v40 cH (ix2 i j) = tee (steps 3 s).2 (steps 3 s).1 i j := by
  unfold k0_pay19
  exact (ns_step (some .fp32) v17 (k0_pay14 v17 v35 v36 v40 cH) (k0_pay15 v17 v35 v36 v40 cH)
    (k0_pay16 v17 v35 v36 v40 cH) (steps 2 s) hI
    (pay14_at v17 v35 v36 v40 s hI hY hZ hR) (pay15_at v17 v35 v36 v40 s hI hY hZ hR)
    (pay16_at v17 v35 v36 v40 s hI hY hZ hR)).2.2 i j

/-! Fourth step: from the pair after three steps. -/

/-- Y T after four steps. -/
private theorem pay20_at (i j : Fin 64) :
    k0_pay20 v17 v35 v36 v40 cH (ix2 i j) = (steps 4 s).1 i j := by
  unfold k0_pay20
  exact (ns_step (some .fp32) v17 (k0_pay17 v17 v35 v36 v40 cH) (k0_pay18 v17 v35 v36 v40 cH)
    (k0_pay19 v17 v35 v36 v40 cH) (steps 3 s) hI
    (pay17_at v17 v35 v36 v40 s hI hY hZ hR) (pay18_at v17 v35 v36 v40 s hI hY hZ hR)
    (pay19_at v17 v35 v36 v40 s hI hY hZ hR)).1 i j

/-- T Z after four steps. -/
private theorem pay21_at (i j : Fin 64) :
    k0_pay21 v17 v35 v36 v40 cH (ix2 i j) = (steps 4 s).2 i j := by
  unfold k0_pay21
  exact (ns_step (some .fp32) v17 (k0_pay17 v17 v35 v36 v40 cH) (k0_pay18 v17 v35 v36 v40 cH)
    (k0_pay19 v17 v35 v36 v40 cH) (steps 3 s) hI
    (pay17_at v17 v35 v36 v40 s hI hY hZ hR) (pay18_at v17 v35 v36 v40 s hI hY hZ hR)
    (pay19_at v17 v35 v36 v40 s hI hY hZ hR)).2.1 i j

/-- The correction of the pair after four steps. -/
private theorem pay22_at (i j : Fin 64) :
    k0_pay22 v17 v35 v36 v40 cH (ix2 i j) = tee (steps 4 s).2 (steps 4 s).1 i j := by
  unfold k0_pay22
  exact (ns_step (some .fp32) v17 (k0_pay17 v17 v35 v36 v40 cH) (k0_pay18 v17 v35 v36 v40 cH)
    (k0_pay19 v17 v35 v36 v40 cH) (steps 3 s) hI
    (pay17_at v17 v35 v36 v40 s hI hY hZ hR) (pay18_at v17 v35 v36 v40 s hI hY hZ hR)
    (pay19_at v17 v35 v36 v40 s hI hY hZ hR)).2.2 i j

/-! Fifth step: from the pair after four steps. -/

/-- `Y` five steps on. -/
theorem pay23_at (i j : Fin 64) :
    k0_pay23 v17 v35 v36 v40 (Scalar.ofBits .f32 0x3F000000#32 : Ideal .f32) (ix2 i j) = (steps 5 s).1 i j := by
  unfold k0_pay23
  exact (ns_step (some .fp32) v17 (k0_pay20 v17 v35 v36 v40 cH) (k0_pay21 v17 v35 v36 v40 cH)
    (k0_pay22 v17 v35 v36 v40 cH) (steps 4 s) hI
    (pay20_at v17 v35 v36 v40 s hI hY hZ hR) (pay21_at v17 v35 v36 v40 s hI hY hZ hR)
    (pay22_at v17 v35 v36 v40 s hI hY hZ hR)).1 i j

/-- `Z` five steps on. -/
theorem pay24_at (i j : Fin 64) :
    k0_pay24 v17 v35 v36 v40 (Scalar.ofBits .f32 0x3F000000#32 : Ideal .f32) (ix2 i j) = (steps 5 s).2 i j := by
  unfold k0_pay24
  exact (ns_step (some .fp32) v17 (k0_pay20 v17 v35 v36 v40 cH) (k0_pay21 v17 v35 v36 v40 cH)
    (k0_pay22 v17 v35 v36 v40 cH) (steps 4 s) hI
    (pay20_at v17 v35 v36 v40 s hI hY hZ hR) (pay21_at v17 v35 v36 v40 s hI hY hZ hR)
    (pay22_at v17 v35 v36 v40 s hI hY hZ hR)).2.1 i j

/-- The product `Z Y` five steps on. -/
theorem pay25_at (i j : Fin 64) :
    k0_pay25 v17 v35 v36 v40 (Scalar.ofBits .f32 0x3F000000#32 : Ideal .f32) (ix2 i j)
      = mm (steps 5 s).2 (steps 5 s).1 i j := by
  unfold k0_pay25
  exact mm_at (some .fp32) (k0_pay24 v17 v35 v36 v40 cH) (k0_pay23 v17 v35 v36 v40 cH)
    (steps 5 s).2 (steps 5 s).1
    (pay24_at v17 v35 v36 v40 s hI hY hZ hR) (pay23_at v17 v35 v36 v40 s hI hY hZ hR) i j

end Cert.KernelIdeal.Blk

end
-- ==== Proof.KPart3.lean ====
/-
  The last stretch of the kernel's body at the extended reals: four more Newton–Schulz steps, the division
  by the square root of the norm, and the product with the centred block.
-/
import proofs.«120856_j2628519985843_1_alg».proof.Proof.Gen.KernelIdeal.Skeleton
import proofs.«120856_j2628519985843_1_alg».proof.Proof.KOps
import Idealize.ShloMosaic.Lib.Pipeline.Value

noncomputable section

namespace Cert.KernelIdeal.Blk

open Idealize.ShloMosaic Idealize.ShloMosaic.ValueIdx Cert.KernelIdeal Cert.KernelIdeal.Gen Cert.Whiten

/-- On the left operand of the last product the row axis reads the result's row. -/
private theorem lhs_last_0 (j : S64x18432.Idx) (k : dot_S64x64_S64x18432_S64x18432_1_0_0_1_n_n.contr.Idx) :
    (dot_S64x64_S64x18432_S64x18432_1_0_0_1_n_n.lhsIdx j k 0).val = (j 0).val := by
  unfold DotDims.lhsIdx
  rw [dif_neg (show ¬(0 : Fin S64x64.rank) ∈ dot_S64x64_S64x18432_S64x18432_1_0_0_1_n_n.lhsBatch by decide),
    dif_pos (show (0 : Fin S64x64.rank) ∈ dot_S64x64_S64x18432_S64x18432_1_0_0_1_n_n.lhsNonContracting by decide)]
  rfl

/-- Its column axis is the contracted one: it reads the contraction's coordinate. -/
private theorem lhs_last_1 (j : S64x18432.Idx) (k : dot_S64x64_S64x18432_S64x18432_1_0_0_1_n_n.contr.Idx) :
    (dot_S64x64_S64x18432_S64x18432_1_0_0_1_n_n.lhsIdx j k 1).val = (k ⟨0, by decide⟩).val :=
  DotDims.lhsIdx_val_of_single _ rfl j k

/-- On the right operand the row axis is the contracted one. -/
private theorem rhs_last_0 (j : S64x18432.Idx) (k : dot_S64x64_S64x18432_S64x18432_1_0_0_1_n_n.contr.Idx) :
    (dot_S64x64_S64x18432_S64x18432_1_0_0_1_n_n.rhsIdx j k 0).val = (k ⟨0, by decide⟩).val :=
  DotDims.rhsIdx_val_of_single _ rfl j k

/-- Its column axis reads the result's column. -/
private theorem rhs_last_1 (j : S64x18432.Idx) (k : dot_S64x64_S64x18432_S64x18432_1_0_0_1_n_n.contr.Idx) :
    (dot_S64x64_S64x18432_S64x18432_1_0_0_1_n_n.rhsIdx j k 1).val = (j 1).val := by
  unfold DotDims.rhsIdx
  rw [dif_neg (show ¬(1 : Fin S64x18432.rank) ∈ dot_S64x64_S64x18432_S64x18432_1_0_0_1_n_n.rhsBatch by decide),
    dif_pos (show (1 : Fin S64x18432.rank) ∈ dot_S64x64_S64x18432_S64x18432_1_0_0_1_n_n.rhsNonContracting by decide)]
  rfl

/-- The 64 × 64 by 64 × 18432 product into the zero accumulator, at entry (g, p): the sum over h of A g h · B h p. -/
private theorem last_mm_at {φ₁ φ₂ : FTy} (prec : Option ContractPrecision) (A : FVec Ideal S64x64 φ₁) (B : FVec Ideal S64x18432 φ₂)
    (g : Fin 64) (p : Fin 18432) :
    matmul dot_S64x64_S64x18432_S64x18432_1_0_0_1_n_n prec A B (constant S64x18432 .f32 0x00000000#32) (ix2 g p)
      = ∑ h : Fin 64, A (ix2 g h) * B (ix2 h p) := by
  refine (Ideal.matmul_constant_zero_apply dot_S64x64_S64x18432_S64x18432_1_0_0_1_n_n prec A B (ix2 g p)).trans ?_
  rw [← Equiv.sum_comp (contrEquiv1 dot_S64x64_S64x18432_S64x18432_1_0_0_1_n_n 64 rfl rfl).symm]
  refine Finset.sum_congr rfl fun h _ => ?_
  have hk := contrEquiv1_symm_val dot_S64x64_S64x18432_S64x18432_1_0_0_1_n_n 64 rfl rfl h
  have el : dot_S64x64_S64x18432_S64x18432_1_0_0_1_n_n.lhsIdx (ix2 g p)
      ((contrEquiv1 dot_S64x64_S64x18432_S64x18432_1_0_0_1_n_n 64 rfl rfl).symm h) = ix2 g h := by
    funext ax; apply Fin.ext
    match ax with
    | ⟨0, _⟩ => exact lhs_last_0 _ _
    | ⟨1, _⟩ => exact (lhs_last_1 _ _).trans hk
  have er : dot_S64x64_S64x18432_S64x18432_1_0_0_1_n_n.rhsIdx (ix2 g p)
      ((contrEquiv1 dot_S64x64_S64x18432_S64x18432_1_0_0_1_n_n 64 rfl rfl).symm h) = ix2 h p := by
    funext ax; apply Fin.ext
    match ax with
    | ⟨0, _⟩ => exact (rhs_last_0 _ _).trans hk
    | ⟨1, _⟩ => exact rhs_last_1 _ _
  rw [el, er]

/-- A 1 × 1 array broadcast to 64 × 64 reads its one entry everywhere. -/
private theorem bcast_one_at {α : Type} (v : S1x1.Idx → α) (h : S1x1.Broadcasts S64x64) (i j : Fin 64) :
    broadcastTo S64x64 v h (ix2 i j) = v (ix2 (0 : Fin 1) (0 : Fin 1)) := by
  refine broadcastTo_apply v h (ix2 i j) (ix2 (0 : Fin 1) (0 : Fin 1)) fun ax => ?_
  match ax with
  | ⟨0, _⟩ =>
    show 0 = if (1 : ℕ) = 1 then 0 else i.val
    rw [if_pos rfl]
  | ⟨1, _⟩ =>
    show 0 = if (1 : ℕ) = 1 then 0 else j.val
    rw [if_pos rfl]

/-- A 64 × 18432 array cast to 1 × 64 × 18432 reads, at (0, g, p), the operand at (g, p): the two indices have the
    same row-major position g · 18432 + p. -/
private theorem cast_lead_at {α : Type} (x : S64x18432.Idx → α) (h : S64x18432.ShapeCasts S1x64x18432) (g : Fin 64) (p : Fin 18432) :
    shapeCast S1x64x18432 x h (ix3 (0 : Fin 1) g p) = x (ix2 g p) :=
  shapeCast_apply x h _ _ (by
    rw [Shape.rowMajor_val_two, Shape.rowMajor_val_three]
    show g.val * 18432 + p.val = (0 * 64 + g.val) * 18432 + p.val
    omega)

/-- The kernel's correction matrix ½ · (3 · I − P) from the identity `I` and a product `P`. -/
private def kT (I P : FVec Ideal S64x64 .f32) : FVec Ideal S64x64 .f32 :=
  mulf (broadcast S64x64 (Scalar.ofBits .f32 0x3F000000#32))
    (subf (mulf (broadcast S64x64 (Scalar.ofBits .f32 0x40400000#32)) I) P)

/-- The kernel's 64 × 64 product into the zero accumulator. -/
private def kmm (A B : FVec Ideal S64x64 .f32) : FVec Ideal S64x64 .f32 :=
  matmul dot_S64x64_S64x64_S64x64_1_0_0_1_n_n (some .fp32) A B (constant S64x64 .f32 0x00000000#32)

/-- Where `I` reads the identity and `P` reads Z · Y, the correction matrix reads `tee Z Y`. -/
private theorem kT_at (I P : FVec Ideal S64x64 .f32) (Z Y : Mat)
    (hI : ∀ i j : Fin 64, I (ix2 i j) = eye i j)
    (hP : ∀ i j : Fin 64, P (ix2 i j) = mm Z Y i j) (i j : Fin 64) :
    kT I P (ix2 i j) = tee Z Y i j := by
  show cHalf * (c3 * I (ix2 i j) - P (ix2 i j)) = cHalf * (c3 * eye i j - mm Z Y i j)
  rw [hI, hP]

/-- The kernel's product of two arrays that read the matrices `a` and `b` reads their product. -/
private theorem kmm_mm (A B : FVec Ideal S64x64 .f32) (a b : Mat)
    (hA : ∀ i j : Fin 64, A (ix2 i j) = a i j)
    (hB : ∀ i j : Fin 64, B (ix2 i j) = b i j) (i j : Fin 64) :
    kmm A B (ix2 i j) = mm a b i j := by
  refine (kmm_at (some .fp32) A B i j).trans ?_
  exact Finset.sum_congr rfl fun k _ => by rw [hA, hB]

/-- One Newton–Schulz step of the kernel: from arrays reading the pair `s` and its product Z · Y, the three products
    Y · T, T · Z and (T · Z) · (Y · T) read the next pair and its product. -/
private theorem kstep (I Y Z P : FVec Ideal S64x64 .f32) (s : Mat × Mat)
    (hI : ∀ i j : Fin 64, I (ix2 i j) = eye i j)
    (hY : ∀ i j : Fin 64, Y (ix2 i j) = s.1 i j)
    (hZ : ∀ i j : Fin 64, Z (ix2 i j) = s.2 i j)
    (hP : ∀ i j : Fin 64, P (ix2 i j) = mm s.2 s.1 i j) :
    (∀ i j : Fin 64, kmm Y (kT I P) (ix2 i j) = (step s).1 i j)
      ∧ (∀ i j : Fin 64, kmm (kT I P) Z (ix2 i j) = (step s).2 i j)
      ∧ (∀ i j : Fin 64, kmm (kmm (kT I P) Z) (kmm Y (kT I P)) (ix2 i j) = mm (step s).2 (step s).1 i j) := by
  have hT : ∀ i j : Fin 64, kT I P (ix2 i j) = tee s.2 s.1 i j := kT_at I P s.2 s.1 hI hP
  have h1 : ∀ i j : Fin 64, kmm Y (kT I P) (ix2 i j) = (step s).1 i j := kmm_mm Y (kT I P) s.1 (tee s.2 s.1) hY hT
  have h2 : ∀ i j : Fin 64, kmm (kT I P) Z (ix2 i j) = (step s).2 i j := kmm_mm (kT I P) Z (tee s.2 s.1) s.2 hT hZ
  exact ⟨h1, h2, kmm_mm _ _ (step s).2 (step s).1 h2 h1⟩

/-- The stored block at row g, entry p: the rescaled `Z` four steps on, times the centred block. -/
theorem pay26_at (v8 : FVec Ideal S64x18432 .bf16) (v17 v75 v76 v77 : FVec Ideal S64x64 .f32)
    (v26 : FVec Ideal S1x1 .f32) (s : Mat × Mat) (Xc : Blk) (r : EReal)
    (hI : ∀ i j : Fin 64, v17 (ix2 i j) = eye i j)
    (hY : ∀ i j : Fin 64, v75 (ix2 i j) = s.1 i j)
    (hZ : ∀ i j : Fin 64, v76 (ix2 i j) = s.2 i j)
    (hP : ∀ i j : Fin 64, v77 (ix2 i j) = mm s.2 s.1 i j)
    (h8 : ∀ (g : Fin 64) (p : Fin 18432), v8 (ix2 g p) = Xc g p)
    (h26 : v26 (ix2 (0 : Fin 1) (0 : Fin 1)) = r)
    (g : Fin 64) (p : Fin 18432) :
    k0_pay26 v8 v17 v26 v75 v76 v77 (ix3 (0 : Fin 1) g p)
      = ∑ h : Fin 64, Ideal.div ((steps 4 s).2 g h) (Ideal.sqrt r) * Xc h p := by
  -- three full steps, then the fourth step's second component
  obtain ⟨hY7, hZ7, hP7⟩ := kstep v17 v75 v76 v77 s hI hY hZ hP
  obtain ⟨hY8, hZ8, hP8⟩ := kstep v17 _ _ _ (step s) hI hY7 hZ7 hP7
  obtain ⟨hY9, hZ9, hP9⟩ := kstep v17 _ _ _ (step (step s)) hI hY8 hZ8 hP8
  have hZ10 := (kstep v17 _ _ _ (step (step (step s))) hI hY9 hZ9 hP9).2.1
  have e4 : steps 4 s = step (step (step (step s))) := rfl
  -- the payload from the outside in: the cast, the last product, then entrywise the quotient by the broadcast root
  unfold k0_pay26
  refine (cast_lead_at _ _ g p).trans ?_
  refine (last_mm_at none _ _ g p).trans ?_
  refine Finset.sum_congr rfl fun h _ => ?_
  rw [h8]
  refine congrArg (· * Xc h p) ?_
  refine (truncf_apply (s := S64x64) (φ := .f32) (ψ := .bf16) _ _ (ix2 g h)).trans ?_
  refine (divf_apply (s := S64x64) (φ := .f32) _ _ (ix2 g h)).trans ?_
  rw [bcast_one_at]
  show Ideal.div _ (Ideal.sqrt (v26 (ix2 (0 : Fin 1) (0 : Fin 1)))) = _
  rw [h26, e4]
  exact congrArg (fun x => Ideal.div x (Ideal.sqrt r)) (hZ10 g h)

end Cert.KernelIdeal.Blk

end
-- ==== Proof.KBlock.lean ====
/-
  What a grid point writes back, at the extended reals: the whitening of the block it loaded.

  The body's value is cut in three stretches. The first gives the centred block, the identity, the norm of
  the covariance and the pair (Y, Z) after one Newton–Schulz step together with 3 I − Z Y; the second
  carries any such pair five steps on; the third four more, rescales Z and multiplies the centred block.
  One step and five and four make the ten of the specification.
-/
import proofs.«120856_j2628519985843_1_alg».proof.Proof.Gen.KernelIdeal.Frame
import proofs.«120856_j2628519985843_1_alg».proof.Proof.KPart1
import proofs.«120856_j2628519985843_1_alg».proof.Proof.KPart2
import proofs.«120856_j2628519985843_1_alg».proof.Proof.KPart3
import Idealize.ShloMosaic.Lib.Pipeline.Value

noncomputable section

namespace Cert.KernelIdeal.Blk

open Idealize.ShloMosaic Idealize.ShloMosaic.ValueIdx Cert.KernelIdeal Cert.KernelIdeal.Gen Cert.Whiten

/-- The whole-buffer rectangle starts at the origin. -/
theorem origin3 : (![0, 0, 0] : Fin 3 → Nat) = fun _ => 0 := funext fun a => by fin_cases a <;> rfl

theorem out_block (x0 : Vec Ideal S1x64x18432 .f32) (g : Fin 64) (p : Fin 18432) :
    out0_1 x0 (ix3 (0 : Fin 1) g p) = whiten (rows x0) g p := by
  unfold out0_1
  rw [View.canon_unit_zero origin3]
  simp only [View.ld_unit_zero (S := S1x64x18432) origin3]
  have e6 : steps 5 (iter (cov (centre (rows x0))) 1) = iter (cov (centre (rows x0))) 6 := steps_iter _ 5 1
  have e10 : steps 4 (iter (cov (centre (rows x0))) 6) = iter (cov (centre (rows x0))) 10 := steps_iter _ 4 6
  have hI : ∀ i j : Fin 64, k0_pay2 (F := Ideal) (ix2 i j) = eye i j := pay2_at
  have h7 := pay7_at x0
  have h8 := pay8_at x0
  have h9 := pay9_at x0
  refine (pay26_at _ _ _ _ _ _ (iter (cov (centre (rows x0))) 6) (centre (rows x0)) (nrm (cov (centre (rows x0)))) hI
    (fun i j => (pay23_at _ _ _ _ (iter (cov (centre (rows x0))) 1) hI h7 h8 h9 i j).trans (by rw [e6]))
    (fun i j => (pay24_at _ _ _ _ (iter (cov (centre (rows x0))) 1) hI h7 h8 h9 i j).trans (by rw [e6]))
    (fun i j => (pay25_at _ _ _ _ (iter (cov (centre (rows x0))) 1) hI h7 h8 h9 i j).trans (by rw [e6]))
    (pay1_at x0) (pay4_at x0) g p).trans ?_
  rw [e10]
  rfl

end Cert.KernelIdeal.Blk

end
-- ==== Proof.KArray.lean ====
/-
  The kernel program's run at the extended reals with its result named: the closing reshapes, scale and
  shift applied to the whitening of every batch entry of the reshaped input.
-/
import proofs.«120856_j2628519985843_1_alg».proof.Proof.Gen.KernelIdeal.Frame
import proofs.«120856_j2628519985843_1_alg».proof.Proof.KBlock
import Idealize.ShloMosaic.Lib.Pipeline.Value
import Idealize.ShloMosaic.Lib.StableHlo.Run

noncomputable section

namespace Cert.KernelIdeal.Arr

open Idealize.ShloMosaic Idealize.ShloMosaic.ValueIdx Idealize.ShloMosaic.TcCoe Idealize.SL.Sem
open Cert.KernelIdeal Cert.KernelIdeal.Gen Cert.Whiten

/-- The reshapes before the call: [32, 512, 48, 48] to [32, 64, 18432], group-major. -/
def head (x : FVec Ideal S32x512x48x48 .f32) : FVec Ideal S32x64x18432 .f32 :=
  shapeCast _ (transpose S32x64x8x48x48 [0, 2, 1, 3, 4] (shapeCast _ x shapeCasts_S32x512x48x48_S32x8x64x48x48)
    transposes_S32x8x64x48x48_S32x64x8x48x48_0_2_1_3_4) shapeCasts_S32x64x8x48x48_S32x64x18432

/-- The reshapes after the call, then the per-channel scale and shift. -/
def tail (y : FVec Ideal S32x64x18432 .f32) (w b : FVec Ideal S1x512x1x1 .f32) : FVec Ideal S32x512x48x48 .f32 :=
  addf (mulf (shapeCast _ (transpose S32x8x64x48x48 [0, 2, 1, 3, 4] (shapeCast _ y shapeCasts_S32x64x18432_S32x64x8x48x48)
      transposes_S32x64x8x48x48_S32x8x64x48x48_0_2_1_3_4) shapeCasts_S32x8x64x48x48_S32x512x48x48)
    (broadcastInDim S32x512x48x48 ![0, 1, 2, 3] bcast_S1x512x1x1_S32x512x48x48_0_1_2_3 w))
    (broadcastInDim S32x512x48x48 ![0, 1, 2, 3] bcast_S1x512x1x1_S32x512x48x48_0_1_2_3 b)

section Steps

variable (m : (ℓ : Loc nD τ sig) → Buf (Elt Ideal) ℓ) (ρ : Dev nD → PrngReg)

/-! ## The array the region reads -/

/-- The region's input array is the reshaped argument: the three host operations before the call, composed. -/
private theorem V_in (c : Dev nD) : V m c main_v2 = head (m ((c.tc : Thread nD τ).loc main_arg0)) := by
  show StableHlo.after hostOps0 (fun b => m (c, b)) (Proc.devRef .tc main_v2) = _
  after_results
  rfl

/-! ## The index maps over the grid -/

/-- Both windows' block index at point `t` is `(t, 0, 0)`: decided over the 32 points. -/
private theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-! ## A block of the array, coordinate by coordinate -/

/-- Where an entry of window 0's block at point `t` sits in the array: batch entry `t`, the same row and column
    (a block's coordinate is index × size + 1 × the coordinate inside the block). -/
private theorem emb_in (t : Fin cfg0.N) (g : Fin 64) (p : Fin 18432) :
    ((cfg0.win 0).blk t).view.emb (ix3 (0 : Fin 1) g p) = ix3 (Fin.cast N_0 t) g p := by
  obtain ⟨e0, e1, e2, e3, e4, e5⟩ := idx_facts t
  funext a; apply Fin.ext
  match a with
  | ⟨0, _⟩ => show win0_0.index t (0 : Fin 3) * 1 + 1 * 0 = t.val; omega
  | ⟨1, _⟩ => show win0_0.index t (1 : Fin 3) * 64 + 1 * g.val = g.val; omega
  | ⟨2, _⟩ => show win0_0.index t (2 : Fin 3) * 18432 + 1 * p.val = p.val; omega

/-- The same for window 1. -/
private theorem emb_out (t : Fin cfg0.N) (g : Fin 64) (p : Fin 18432) :
    ((cfg0.win 1).blk t).view.emb (ix3 (0 : Fin 1) g p) = ix3 (Fin.cast N_0 t) g p := by
  obtain ⟨e0, e1, e2, e3, e4, e5⟩ := idx_facts t
  funext a; apply Fin.ext
  match a with
  | ⟨0, _⟩ => show win0_1.index t (0 : Fin 3) * 1 + 1 * 0 = t.val; omega
  | ⟨1, _⟩ => show win0_1.index t (1 : Fin 3) * 64 + 1 * g.val = g.val; omega
  | ⟨2, _⟩ => show win0_1.index t (2 : Fin 3) * 18432 + 1 * p.val = p.val; omega

/-! ## What a point writes back -/

/-- An index of a 1 × 64 × 18432 block is its row and column under the one leading coordinate. -/
private theorem eq_ix3_unit (j : S1x64x18432.Idx) : j = ix3 (0 : Fin 1) (j 1) (j 2) :=
  (eq_ix3 j).trans (congrArg (fun a : Fin 1 => ix3 a (j 1) (j 2)) (Fin.fin_one_eq_zero (j 0)))

/-- The body's result for window 1 at any entry of the block: the whitening of the loaded block's rows. -/
private theorem out_at (x0 : Vec Ideal S1x64x18432 .f32) (j : S1x64x18432.Idx) :
    out0_1 x0 j = whiten (Blk.rows x0) (j 1) (j 2) := by
  exact (congrArg (out0_1 x0) (eq_ix3_unit j)).trans (Blk.out_block x0 (j 1) (j 2))

/-- The loaded block's rows are batch entry `t` of the array the region reads. -/
private theorem rows_iblk (c : Dev nD) (t : Fin cfg0.N) :
    Blk.rows (iblk m c 0 t) = fun g p => V m c main_v2 (ix3 (Fin.cast N_0 t) g p) := by
  funext g p
  show V m c main_v2 (((cfg0.win 0).blk t).view.emb (ix3 (0 : Fin 1) g p)) = _
  rw [emb_in]

/-- What point `t` leaves at an entry of its block is the whitening of batch entry `t` at the entry's place in the array. -/
private theorem flushed_at (c : Dev nD) (t : Fin cfg0.N) (j : S1x64x18432.Idx) :
    out0_1 (iblk m c 0 t) j = whitenAll (V m c main_v2) (((cfg0.win 1).blk t).view.emb j) := by
  have he : ((cfg0.win 1).blk t).view.emb j = ix3 (Fin.cast N_0 t) (j 1) (j 2) :=
    (congrArg _ (eq_ix3_unit j)).trans (emb_out t (j 1) (j 2))
  rw [out_at, rows_iblk, he]
  rfl

/-- Point `t` writes back block `t` of the whitening of every batch entry of the array the region reads. -/
private theorem flushed_eq (c : Dev nD) (t : Fin cfg0.N) :
    (dats m 0 c).flushed 1 t = ((cfg0.win 1).blk t).view.read (Elt Ideal) (whitenAll (V m c main_v2)) := by
  show (cfg0.win 1).cut (grid0.coords t) ((dats m 0 c).after 1 t) = _
  rw [after0_1]
  funext j
  exact flushed_at m c t j

/-! ## The array after the run -/

/-- An index of the array is in point `t`'s block iff each coordinate is in the block's range on its axis. -/
private theorem mem_blk (t : Fin cfg0.N) (i : S32x64x18432.Idx) :
    i ∈ ((cfg0.win 1).blk t).view.set ↔ ∀ a : Fin 3, win0_1.index t a * S1x64x18432.size a ≤ (i a).val
      ∧ (i a).val < win0_1.index t a * S1x64x18432.size a + S1x64x18432.size a := by
  show i ∈ ((View.whole main_v3).slice (win0_1.rect t)).set ↔ _
  rw [View.set_slice_whole, Rect.mem_set_unit]
  exact Iff.rfl

/-- The blocks cover the array: batch entry `n` lies in the block of point `n`. -/
private theorem cover (i : S32x64x18432.Idx) :
    ∃ t : Fin cfg0.N, (cfg0.win 1).flush t = true ∧ i ∈ ((cfg0.win 1).blk t).view.set := by
  obtain ⟨t, ht⟩ : ∃ t : Fin cfg0.N, t.val = (i 0).val := ⟨Fin.cast N_0.symm (i 0), rfl⟩
  refine ⟨t, flush0_1 t, ?_⟩
  rw [mem_blk]
  obtain ⟨e0, e1, e2, e3, e4, e5⟩ := idx_facts t
  have h1 : (i 1).val < 64 := (i 1).isLt
  have h2 : (i 2).val < 18432 := (i 2).isLt
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 64 ≤ (i 1).val ∧ (i 1).val < win0_1.index t (1 : Fin 3) * 64 + 64; omega
  | ⟨2, _⟩ => show win0_1.index t (2 : Fin 3) * 18432 ≤ (i 2).val ∧ (i 2).val < win0_1.index t (2 : Fin 3) * 18432 + 18432; omega

/-- After the run window 1's array holds the whitening of every batch entry of the array the region reads. -/
private theorem final (c : Dev nD) : (dats m 0 c).arrAt 1 cfg0.N = whitenAll (V m c main_v2) :=
  (dats m 0 c).arrAt_eq_of_cover 1 (whitenAll (V m c main_v2)) (fun t _ => flushed_eq m c t) cover

/-! ## The host operations after the call -/

/-- The result buffer after the closing host operations: the tail of window 1's array and the two arguments. -/
private theorem tail_eq (c : Dev nD) :
    Pipeline.afterTail₀ cfgs (dats m) 0 (V0 m) [hostOps1] c main_v10
      = tail (whitenAll (head (m ((c.tc : Thread nD τ).loc main_arg0))))
          (m ((c.tc : Thread nD τ).loc main_arg1)) (m ((c.tc : Thread nD τ).loc main_arg2)) := by
  unfold Pipeline.afterTail₀
  show StableHlo.after hostOps1 _ (Proc.devRef .tc main_v10) = _
  after_results
  have h3 : Pipeline.withArrays (cfgs 0).spec c (V0 m c) (fun w => (dats m 0 c).arrAt w (cfgs 0).N) (Proc.devRef .tc main_v3)
      = whitenAll (head (m ((c.tc : Thread nD τ).loc main_arg0))) :=
    (Pipeline.withArrays_arr spec0 launch0.win.arr_inj c _ _ 1).trans ((final m c).trans (congrArg whitenAll (V_in m c)))
  have h1 : Pipeline.withArrays (cfgs 0).spec c (V0 m c) (fun w => (dats m 0 c).arrAt w (cfgs 0).N) (Proc.devRef .tc main_arg1)
      = m ((c.tc : Thread nD τ).loc main_arg1) :=
    (Pipeline.withArrays_of_ne spec0 c (V0 m c) _ main_arg1 (by decide)).trans (V_main_arg1 m c)
  have h2 : Pipeline.withArrays (cfgs 0).spec c (V0 m c) (fun w => (dats m 0 c).arrAt w (cfgs 0).N) (Proc.devRef .tc main_arg2)
      = m ((c.tc : Thread nD τ).loc main_arg2) :=
    (Pipeline.withArrays_of_ne spec0 c (V0 m c) _ main_arg2 (by decide)).trans (V_main_arg2 m c)
  rw [h3, h1, h2]
  rfl

end Steps

/-- Every weakly fair execution ends with the result at `tail (whitenAll (head x)) w b` and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10)
          = tail (whitenAll (head (m ((c.tc : Thread nD τ).loc main_arg0))))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Arr

end
-- ==== Proof.ROps.lean ====
/-
  Shared facts about the reference's batched values at the extended reals: a batched 64 × 64 matrix
  product read at an entry, the batched Newton–Schulz correction read at an entry, and the reference's
  result before its closing reshapes, named once.
-/
import proofs.«120856_j2628519985843_1_alg».proof.Proof.Gen.ReferenceIdeal.Run
import proofs.«120856_j2628519985843_1_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

namespace Cert.ReferenceIdeal.Bat

open Idealize.ShloMosaic Idealize.ShloMosaic.ValueIdx Idealize.ShloMosaic.TcCoe Idealize.ShloMosaic.StableHlo
open Cert.ReferenceIdeal Cert.ReferenceIdeal.Gen Cert.ReferenceIdeal.Value Cert.Whiten

/-! ### The batched 64 × 64 product's operand indices: at batch n the left operand is read at (n, row, k), the
    right at (n, k, column) -/

theorem bmm_lhs_0 (j : S32x64x64.Idx) (k : dot_S32x64x64_S32x64x64_S32x64x64_2_1_1_2_0_0.contr.Idx) : (dot_S32x64x64_S32x64x64_S32x64x64_2_1_1_2_0_0.lhsIdx j k 0).val = (j 0).val := by
  unfold DotDims.lhsIdx
  rw [dif_pos (show (0 : Fin S32x64x64.rank) ∈ dot_S32x64x64_S32x64x64_S32x64x64_2_1_1_2_0_0.lhsBatch by decide)]
  rfl

theorem bmm_lhs_1 (j : S32x64x64.Idx) (k : dot_S32x64x64_S32x64x64_S32x64x64_2_1_1_2_0_0.contr.Idx) : (dot_S32x64x64_S32x64x64_S32x64x64_2_1_1_2_0_0.lhsIdx j k 1).val = (j 1).val := by
  unfold DotDims.lhsIdx
  rw [dif_neg (show ¬(1 : Fin S32x64x64.rank) ∈ dot_S32x64x64_S32x64x64_S32x64x64_2_1_1_2_0_0.lhsBatch by decide),
    dif_pos (show (1 : Fin S32x64x64.rank) ∈ dot_S32x64x64_S32x64x64_S32x64x64_2_1_1_2_0_0.lhsNonContracting by decide)]
  rfl

theorem bmm_lhs_2 (j : S32x64x64.Idx) (k : dot_S32x64x64_S32x64x64_S32x64x64_2_1_1_2_0_0.contr.Idx) : (dot_S32x64x64_S32x64x64_S32x64x64_2_1_1_2_0_0.lhsIdx j k 2).val = (k ⟨0, by decide⟩).val :=
  dot_S32x64x64_S32x64x64_S32x64x64_2_1_1_2_0_0.lhsIdx_val_of_single rfl j k

theorem bmm_rhs_0 (j : S32x64x64.Idx) (k : dot_S32x64x64_S32x64x64_S32x64x64_2_1_1_2_0_0.contr.Idx) : (dot_S32x64x64_S32x64x64_S32x64x64_2_1_1_2_0_0.rhsIdx j k 0).val = (j 0).val := by
  unfold DotDims.rhsIdx
  rw [dif_pos (show (0 : Fin S32x64x64.rank) ∈ dot_S32x64x64_S32x64x64_S32x64x64_2_1_1_2_0_0.rhsBatch by decide)]
  rfl

theorem bmm_rhs_1 (j : S32x64x64.Idx) (k : dot_S32x64x64_S32x64x64_S32x64x64_2_1_1_2_0_0.contr.Idx) : (dot_S32x64x64_S32x64x64_S32x64x64_2_1_1_2_0_0.rhsIdx j k 1).val = (k ⟨0, by decide⟩).val :=
  dot_S32x64x64_S32x64x64_S32x64x64_2_1_1_2_0_0.rhsIdx_val_of_single rfl j k

theorem bmm_rhs_2 (j : S32x64x64.Idx) (k : dot_S32x64x64_S32x64x64_S32x64x64_2_1_1_2_0_0.contr.Idx) : (dot_S32x64x64_S32x64x64_S32x64x64_2_1_1_2_0_0.rhsIdx j k 2).val = (j 2).val := by
  unfold DotDims.rhsIdx
  rw [dif_neg (show ¬(2 : Fin S32x64x64.rank) ∈ dot_S32x64x64_S32x64x64_S32x64x64_2_1_1_2_0_0.rhsBatch by decide),
    dif_pos (show (2 : Fin S32x64x64.rank) ∈ dot_S32x64x64_S32x64x64_S32x64x64_2_1_1_2_0_0.rhsNonContracting by decide)]
  rfl

/-- A batched 64 × 64 matrix product at batch n, entry (i, j): the sum over k of L n i k · R n k j. -/
theorem rmm_at (L R : FVec Ideal S32x64x64 .f32) (n : Fin 32) (i j : Fin 64) :
    Host.dotGeneral dot_S32x64x64_S32x64x64_S32x64x64_2_1_1_2_0_0 none L R (ix3 n i j)
      = ∑ k : Fin 64, L (ix3 n i k) * R (ix3 n k j) := by
  refine (Ideal.dotGeneral_apply dot_S32x64x64_S32x64x64_S32x64x64_2_1_1_2_0_0 none _ L R (ix3 n i j)).trans ?_
  rw [← Equiv.sum_comp (contrEquiv1 dot_S32x64x64_S32x64x64_S32x64x64_2_1_1_2_0_0 64 rfl rfl).symm]
  refine Finset.sum_congr rfl fun k _ => ?_
  have hk := contrEquiv1_symm_val dot_S32x64x64_S32x64x64_S32x64x64_2_1_1_2_0_0 64 rfl rfl k
  have hl : dot_S32x64x64_S32x64x64_S32x64x64_2_1_1_2_0_0.lhsIdx (ix3 n i j) ((contrEquiv1 dot_S32x64x64_S32x64x64_S32x64x64_2_1_1_2_0_0 64 rfl rfl).symm k) = ix3 n i k := by
    funext a
    match a with
    | ⟨0, _⟩ => exact Fin.ext (bmm_lhs_0 _ _)
    | ⟨1, _⟩ => exact Fin.ext (bmm_lhs_1 _ _)
    | ⟨2, _⟩ => exact Fin.ext ((bmm_lhs_2 _ _).trans hk)
  have hr : dot_S32x64x64_S32x64x64_S32x64x64_2_1_1_2_0_0.rhsIdx (ix3 n i j) ((contrEquiv1 dot_S32x64x64_S32x64x64_S32x64x64_2_1_1_2_0_0 64 rfl rfl).symm k) = ix3 n k j := by
    funext a
    match a with
    | ⟨0, _⟩ => exact Fin.ext (bmm_rhs_0 _ _)
    | ⟨1, _⟩ => exact Fin.ext ((bmm_rhs_1 _ _).trans hk)
    | ⟨2, _⟩ => exact Fin.ext (bmm_rhs_2 _ _)
  rw [hl, hr]

/-- The batched correction `(3 E − Z Y) / 2` at batch n, entry (i, j), for any 1 × 64 × 64 array E in the
    identity's place. -/
theorem rtee_at (E : FVec Ideal S1x64x64 .f32) (Z Y : FVec Ideal S32x64x64 .f32) (n : Fin 32) (i j : Fin 64) :
    (mulf (broadcastInDim S32x64x64 ![] bcast_S_S32x64x64 (constant S_ .f32 0x3F000000#32))
      (subf (broadcastInDim S32x64x64 ![0, 1, 2] bcast_S1x64x64_S32x64x64_0_1_2
              (mulf (broadcastInDim S1x64x64 ![] bcast_S_S1x64x64 (constant S_ .f32 0x40400000#32)) E))
            (Host.dotGeneral dot_S32x64x64_S32x64x64_S32x64x64_2_1_1_2_0_0 none Z Y))) (ix3 n i j)
      = cHalf * (c3 * E (ix3 (0 : Fin 1) i j) - ∑ k : Fin 64, Z (ix3 n i k) * Y (ix3 n k j)) := by
  have hE : broadcastInDim S32x64x64 ![0, 1, 2] bcast_S1x64x64_S32x64x64_0_1_2
      (mulf (broadcastInDim S1x64x64 ![] bcast_S_S1x64x64 (constant S_ .f32 0x40400000#32)) E) (ix3 n i j)
      = (mulf (broadcastInDim S1x64x64 ![] bcast_S_S1x64x64 (constant S_ .f32 0x40400000#32)) E) (ix3 (0 : Fin 1) i j) :=
    broadcastInDim_apply _ _ _ (ix3 n i j) (ix3 (0 : Fin 1) i j) fun a => by
      match a with
      | ⟨0, _⟩ => show (0 : ℕ) = if (1 : ℕ) = 1 then 0 else n.val; rw [if_pos rfl]
      | ⟨1, _⟩ => show i.val = if (64 : ℕ) = 1 then 0 else i.val; rw [if_neg (by decide)]
      | ⟨2, _⟩ => show j.val = if (64 : ℕ) = 1 then 0 else j.val; rw [if_neg (by decide)]
  rw [mulf_apply, subf_apply, rmm_at, hE, mulf_apply, broadcastInDim_scalar_apply, broadcastInDim_scalar_apply,
    constant_apply, constant_apply]
  rfl

/-- The reference's result before its closing reshapes: the rescaled tenth `Z` times the centred array. -/
def core (V0 : Valuation τ sig (Elt Ideal)) : FVec Ideal S32x64x18432 .f32 :=
  Host.dotGeneral (φ₁ := .f32) (φ₂ := .f32) dot_S32x64x64_S32x64x18432_S32x64x18432_2_1_1_2_0_0 none
    (Host.divf (Host.dotGeneral (φ₁ := .f32) (φ₂ := .f32) dot_S32x64x64_S32x64x64_S32x64x64_2_1_1_2_0_0 none
        (res_main_v124 V0 : FVec Ideal S32x64x64 .f32) (res_main_v117 V0 : FVec Ideal S32x64x64 .f32))
      (broadcastInDim S32x64x64 ![0, 1, 2] bcast_S32x1x1_S32x64x64_0_1_2
        (Host.sqrt (res_main_v26 V0 : FVec Ideal S32x1x1 .f32))))
    (res_main_v8 V0 : FVec Ideal S32x64x18432 .f32)

/-- Batch entry n of the reshaped input, as 64 rows. -/
def rowsR (V0 : Valuation τ sig (Elt Ideal)) (n : Fin 32) : Blk := fun g p => res_main_v2 V0 (ix3 n g p)

/-- Batch entry n's covariance with `ε` on the diagonal. -/
def covR (V0 : Valuation τ sig (Elt Ideal)) (n : Fin 32) : Mat := cov (centre (rowsR V0 n))

end Cert.ReferenceIdeal.Bat

end
-- ==== Proof.RPart1.lean ====
/-
  The reference's first stretch at the extended reals, batch entry by batch entry: the centred array, the
  identity, the covariance's Frobenius norm, and the pair after the first Newton–Schulz step.
-/
import proofs.«120856_j2628519985843_1_alg».proof.Proof.ROps
import Idealize.ShloMosaic.Lib.IdealHost
import Idealize.ShloMosaic.Lib.Pipeline.Value

noncomputable section

namespace Cert.ReferenceIdeal.Bat

open Idealize.ShloMosaic Idealize.ShloMosaic.ValueIdx Idealize.ShloMosaic.TcCoe Idealize.ShloMosaic.StableHlo
open Cert.ReferenceIdeal Cert.ReferenceIdeal.Gen Cert.ReferenceIdeal.Value Cert.Whiten

/-! ### The batched Gram product read at an entry -/

private abbrev DG := dot_S32x64x18432_S32x64x18432_S32x64x64_2_2_1_1_0_0

/- The left operand's index at result index `j` and contraction position `q`: batch axis, row axis, contracted axis. -/
private theorem gl0 (j : S32x64x64.Idx) (q : DG.contr.Idx) : (DG.lhsIdx j q (0 : Fin 3)).val = (j (0 : Fin 3)).val := by
  unfold DotDims.lhsIdx
  rw [dif_pos (show (0 : Fin S32x64x18432.rank) ∈ DG.lhsBatch by decide)]
  rfl
private theorem gl1 (j : S32x64x64.Idx) (q : DG.contr.Idx) : (DG.lhsIdx j q (1 : Fin 3)).val = (j (1 : Fin 3)).val := by
  unfold DotDims.lhsIdx
  rw [dif_neg (show ¬(1 : Fin S32x64x18432.rank) ∈ DG.lhsBatch by decide),
    dif_pos (show (1 : Fin S32x64x18432.rank) ∈ DG.lhsNonContracting by decide)]
  rfl
private theorem gl2 (j : S32x64x64.Idx) (q : DG.contr.Idx) :
    (DG.lhsIdx j q (2 : Fin 3)).val = (q ⟨0, by decide⟩).val :=
  DG.lhsIdx_val_of_single (cl := (2 : Fin 3)) rfl j q
/- The right operand's: batch axis, row axis (the result's column), contracted axis. -/
private theorem gr0 (j : S32x64x64.Idx) (q : DG.contr.Idx) : (DG.rhsIdx j q (0 : Fin 3)).val = (j (0 : Fin 3)).val := by
  unfold DotDims.rhsIdx
  rw [dif_pos (show (0 : Fin S32x64x18432.rank) ∈ DG.rhsBatch by decide)]
  rfl
private theorem gr1 (j : S32x64x64.Idx) (q : DG.contr.Idx) : (DG.rhsIdx j q (1 : Fin 3)).val = (j (2 : Fin 3)).val := by
  unfold DotDims.rhsIdx
  rw [dif_neg (show ¬(1 : Fin S32x64x18432.rank) ∈ DG.rhsBatch by decide),
    dif_pos (show (1 : Fin S32x64x18432.rank) ∈ DG.rhsNonContracting by decide)]
  rfl
private theorem gr2 (j : S32x64x64.Idx) (q : DG.contr.Idx) :
    (DG.rhsIdx j q (2 : Fin 3)).val = (q ⟨0, by decide⟩).val :=
  DG.rhsIdx_val_of_single (cr := (2 : Fin 3)) rfl j q

/-- The batched product of an array with another's transpose, batch n, entry (i, j): the sum over p of L n i p · R n j p. -/
private theorem gram_at (L R : FVec Ideal S32x64x18432 .f32) (n : Fin 32) (i j : Fin 64) :
    Host.dotGeneral DG none L R (ix3 n i j) = ∑ p : Fin 18432, L (ix3 n i p) * R (ix3 n j p) := by
  show FloatOps.dotGeneral DG none _ L R (ix3 n i j) = _
  rw [Ideal.dotGeneral_apply, ← Equiv.sum_comp (contrEquiv1 DG 18432 rfl rfl).symm]
  refine Finset.sum_congr rfl fun p _ => ?_
  have hk := contrEquiv1_symm_val DG 18432 rfl rfl p
  have hl : DG.lhsIdx (ix3 n i j) ((contrEquiv1 DG 18432 rfl rfl).symm p) = ix3 n i p := by
    funext a; apply Fin.ext
    match a with
    | ⟨0, _⟩ => exact gl0 _ _
    | ⟨1, _⟩ => exact gl1 _ _
    | ⟨2, _⟩ => exact (gl2 _ _).trans hk
  have hr : DG.rhsIdx (ix3 n i j) ((contrEquiv1 DG 18432 rfl rfl).symm p) = ix3 n j p := by
    funext a; apply Fin.ext
    match a with
    | ⟨0, _⟩ => exact gr0 _ _
    | ⟨1, _⟩ => exact gr1 _ _
    | ⟨2, _⟩ => exact (gr2 _ _).trans hk
  rw [hl, hr]

/-! ### The broadcasts of this program read at an entry -/

section Bcast
variable {α : Type}

/-- A column [32, 64, 1] spread along the last axis reads the column's one entry. -/
private theorem bc_col (x : S32x64x1.Idx → α) (n : Fin 32) (g : Fin 64) (p : Fin 18432) :
    broadcastInDim S32x64x18432 ![0, 1, 2] bcast_S32x64x1_S32x64x18432_0_1_2 x (ix3 n g p) = x (ix3 n g (0 : Fin 1)) :=
  broadcastInDim_apply _ _ x (ix3 n g p) (ix3 n g (0 : Fin 1)) fun a => by
    match a with
    | ⟨0, _⟩ => rfl
    | ⟨1, _⟩ => rfl
    | ⟨2, _⟩ => rfl

/-- A [32, 64] array given a trailing unit axis reads the same entry. -/
private theorem bc_keep (x : S32x64.Idx → α) (n : Fin 32) (g : Fin 64) :
    broadcastInDim S32x64x1 ![0, 1] bcast_S32x64_S32x64x1_0_1 x (ix3 n g (0 : Fin 1)) = x (ix2 n g) :=
  broadcastInDim_apply _ _ x (ix3 n g (0 : Fin 1)) (ix2 n g) fun a => by
    match a with
    | ⟨0, _⟩ => rfl
    | ⟨1, _⟩ => rfl

/-- A [1, 64, 64] array spread over the 32 batch entries reads its one matrix. -/
private theorem bc_batch (x : S1x64x64.Idx → α) (n : Fin 32) (i j : Fin 64) :
    broadcastInDim S32x64x64 ![0, 1, 2] bcast_S1x64x64_S32x64x64_0_1_2 x (ix3 n i j) = x (ix3 (0 : Fin 1) i j) :=
  broadcastInDim_apply _ _ x (ix3 n i j) (ix3 (0 : Fin 1) i j) fun a => by
    match a with
    | ⟨0, _⟩ => rfl
    | ⟨1, _⟩ => rfl
    | ⟨2, _⟩ => rfl

/-- A [64, 64] matrix given a leading unit axis reads the same entry. -/
private theorem bc_lead (x : S64x64.Idx → α) (i j : Fin 64) :
    broadcastInDim S1x64x64 ![1, 2] bcast_S64x64_S1x64x64_1_2 x (ix3 (0 : Fin 1) i j) = x (ix2 i j) :=
  broadcastInDim_apply _ _ x (ix3 (0 : Fin 1) i j) (ix2 i j) fun a => by
    match a with
    | ⟨0, _⟩ => rfl
    | ⟨1, _⟩ => rfl

/-- A [32] vector given two trailing unit axes reads the same entry. -/
private theorem bc_vec (x : S32.Idx → α) (n : Fin 32) :
    broadcastInDim S32x1x1 ![0] bcast_S32_S32x1x1_0 x (ix3 n (0 : Fin 1) (0 : Fin 1)) = x (ix1 n) :=
  broadcastInDim_apply _ _ x (ix3 n (0 : Fin 1) (0 : Fin 1)) (ix1 n) fun a => by
    match a with
    | ⟨0, _⟩ => rfl

/-- A [32, 1, 1] array spread over each 64 × 64 matrix reads the batch entry's one value. -/
private theorem bc_scal (x : S32x1x1.Idx → α) (n : Fin 32) (i j : Fin 64) :
    broadcastInDim S32x64x64 ![0, 1, 2] bcast_S32x1x1_S32x64x64_0_1_2 x (ix3 n i j) = x (ix3 n (0 : Fin 1) (0 : Fin 1)) :=
  broadcastInDim_apply _ _ x (ix3 n i j) (ix3 n (0 : Fin 1) (0 : Fin 1)) fun a => by
    match a with
    | ⟨0, _⟩ => rfl
    | ⟨1, _⟩ => rfl
    | ⟨2, _⟩ => rfl

end Bcast

/-! ### The centred array -/

/-- The host's sum over the last axis of a [32, 64, 18432] array from the zero word, at (n, g): the row's sum. -/
private theorem rowsum_at (x : FVec Ideal S32x64x18432 .f32) (n : Fin 32) (g : Fin 64) :
    Host.reduceAdd x (constant (F := Ideal) S_ .f32 0x00000000#32) reducesTo_S32x64x18432_S32x64_d2 h_S_ (ix2 n g)
      = ∑ q : Fin 18432, x (ix3 n g q) := by
  have hR : S32x64x18432.Reduces [2] S32x64 := by decide
  show Ideal.hostReduceAdd reducesTo_S32x64x18432_S32x64_d2 x (Ideal.ofBits .f32 0x00000000#32) (ix2 n g) = _
  rw [Ideal.hostReduceAdd_single reducesTo_S32x64x18432_S32x64_d2 hR x _ (ix2 n g), Ideal.ofBits_zero_f32, zero_add]
  refine Finset.sum_congr rfl fun q _ => congrArg x ?_
  funext a; apply Fin.ext
  match a with
  | ⟨0, _⟩ => rfl
  | ⟨1, _⟩ => rfl
  | ⟨2, _⟩ => rfl

variable (V0 : Valuation τ sig (Elt Ideal))

/-- The centred array: each row of each batch entry minus its mean. -/
theorem v8_at (n : Fin 32) (g : Fin 64) (p : Fin 18432) :
    res_main_v8 V0 (ix3 n g p) = centre (rowsR V0 n) g p := by
  unfold res_main_v8
  rw [subf_apply, bc_col, hostDivf_apply, bc_keep, rowsum_at, broadcastInDim_scalar_apply, constant_apply]
  rfl

/-! ### The identity matrix -/

/-- The 1-bit comparison of (i + 0) with j as 32-bit words, read unsigned at the extended reals, for coordinates
    below 64: one where they agree and zero elsewhere. -/
private theorem eyeBit (i j : Fin 64) :
    (FloatOps.uitofp (F := Ideal) .f32
        (IntOp.cmpi .eq (IntOp.addi (BitVec.ofNat 32 i.val) 0#32) (BitVec.ofNat 32 j.val)) : EReal)
      = if i = j then 1 else 0 := by
  show (((IntOp.cmpi .eq (IntOp.addi (BitVec.ofNat 32 i.val) 0#32) (BitVec.ofNat 32 j.val)).toNat : ℝ) : EReal) = _
  have h0 : IntOp.addi (BitVec.ofNat 32 i.val) 0#32 = BitVec.ofNat 32 i.val := by
    unfold IntOp.addi; exact BitVec.add_zero _
  rw [h0]
  unfold IntOp.cmpi
  by_cases h : i = j
  · subst h
    rw [if_pos rfl]
    simp
  · rw [if_neg h]
    have hne : (BitVec.ofNat 32 i.val == BitVec.ofNat 32 j.val) = false := by
      rw [beq_eq_false_iff_ne]
      intro he
      have h1 := congrArg BitVec.toNat he
      simp only [BitVec.toNat_ofNat] at h1
      have := i.isLt; have := j.isLt
      exact h (Fin.ext (by omega))
    simp [hne]

/-- The identity as the program builds it on [64, 64]: the unsigned read of the comparison of the two coordinate arrays. -/
private theorem eye64_at (i j : Fin 64) :
    (uitofp (F := Ideal) .f32 (cmpi .eq (addi (iotaInDim S64x64 32 0)
        (broadcastInDim S64x64 ![] bcast_S_S64x64 (constantI S_ 32 0#32))) (iotaInDim S64x64 32 1))) (ix2 i j) = eye i j :=
  eyeBit i j

/-! ### The sum over a batch entry's matrix -/

/-- The host's sum over the two matrix axes of a [32, 64, 64] array from the zero word, at batch entry n: the double
    sum over the entry's rows and columns. The indices that drop to n are exactly the (n, i, j). -/
private theorem matsum_at (x : FVec Ideal S32x64x64 .f32) (n : Fin 32) :
    Host.reduceAdd x (constant (F := Ideal) S_ .f32 0x00000000#32) reducesTo_S32x64x64_S32_d1_2 h_S_ (ix1 n)
      = ∑ i : Fin 64, ∑ j : Fin 64, x (ix3 n i j) := by
  show Ideal.hostReduceAdd reducesTo_S32x64x64_S32_d1_2 x (Ideal.ofBits .f32 0x00000000#32) (ix1 n) = _
  unfold Ideal.hostReduceAdd
  rw [Ideal.ofBits_zero_f32, zero_add]
  have hd : ∀ y : S32x64x64.Idx, reducesTo_S32x64x64_S32_d1_2.drop y = ix1 (y 0) := fun y => by
    funext b
    match b with
    | ⟨0, _⟩ =>
      exact Fin.ext (Shape.ReducesTo.drop_apply_val_of_eq reducesTo_S32x64x64_S32_d1_2 y (0 : Fin 1) (0 : Fin 3))
  have hmem : ∀ y : S32x64x64.Idx,
      y ∈ Finset.univ.filter (fun y => reducesTo_S32x64x64_S32_d1_2.drop y = ix1 n) ↔ (y 0 : Fin 32) = n := by
    intro y
    rw [Finset.mem_filter, hd]
    constructor
    · rintro ⟨_, h⟩; exact congrFun h (0 : Fin 1)
    · intro h; exact ⟨Finset.mem_univ _, congrArg (ix1 (n := 32)) h⟩
  rw [← Fintype.sum_prod_type' (fun (i j : Fin 64) => x (ix3 n i j))]
  refine Finset.sum_bij' (fun y _ => ((y 1 : Fin 64), (y 2 : Fin 64))) (fun p _ => ix3 n p.1 p.2)
    (fun y _ => Finset.mem_univ _) (fun p _ => (hmem _).mpr rfl) ?_ (fun p _ => rfl) ?_
  · intro y hy
    have h0 : (y 0 : Fin 32) = n := (hmem y).mp hy
    subst h0
    exact (eq_ix3 y).symm
  · intro y hy
    have h0 : (y 0 : Fin 32) = n := (hmem y).mp hy
    subst h0
    exact congrArg x (eq_ix3 y)

/-! ### The covariance and its norm -/

/-- Batch entry n's covariance: the Gram product of the centred rows over 18432, plus `ε` on the diagonal. -/
private theorem v22_at (n : Fin 32) (i j : Fin 64) : res_main_v22 V0 (ix3 n i j) = covR V0 n i j := by
  unfold res_main_v22
  rw [addf_apply, hostDivf_apply, gram_at, broadcastInDim_scalar_apply, constant_apply, bc_batch, bc_lead, mulf_apply,
    broadcastInDim_scalar_apply, constant_apply, eye64_at]
  simp only [v8_at]
  rfl

/-- The host's square root at an entry is the ideal square root of the entry. -/
private theorem hostSqrt_at {s : Shape} (x : FVec Ideal s .f32) (i : s.Idx) : Host.sqrt x i = Ideal.sqrt (x i) := rfl

/-- The Frobenius norm of batch entry n's covariance. -/
theorem v26_at (n : Fin 32) :
    res_main_v26 V0 (ix3 n (0 : Fin 1) (0 : Fin 1)) = nrm (covR V0 n) := by
  unfold res_main_v26
  rw [hostSqrt_at, bc_vec, matsum_at]
  simp only [mulf_apply, v22_at]
  rfl

/-! ### The identity as an array, and the start of the iteration -/

/-- The identity matrix, as a 1 × 64 × 64 array. -/
theorem v35_at (i j : Fin 64) : res_main_v35 V0 (ix3 (0 : Fin 1) i j) = eye i j := by
  unfold res_main_v35
  rw [bc_lead]
  exact eye64_at i j

/-- The identity spread over the batch: the first `Z`. -/
private theorem v36_at (n : Fin 32) (i j : Fin 64) : res_main_v36 V0 (ix3 n i j) = eye i j := by
  unfold res_main_v36
  rw [bc_batch]
  exact v35_at V0 i j

/-- The covariance divided by its norm: the first `Y`. -/
private theorem v28_at (n : Fin 32) (i j : Fin 64) : res_main_v28 V0 (ix3 n i j) = (start (covR V0 n)).1 i j := by
  unfold res_main_v28
  rw [hostDivf_apply, bc_scal, v22_at, v26_at]
  rfl

/-! ### The first Newton–Schulz step -/

/-- The first correction `T = (3 I − Z Y) / 2`, at `Z` the identity and `Y` the normalised covariance. -/
private theorem v43_at (n : Fin 32) (i j : Fin 64) :
    res_main_v43 V0 (ix3 n i j) = tee (start (covR V0 n)).2 (start (covR V0 n)).1 i j := by
  unfold res_main_v43
  rw [rtee_at]
  simp only [v35_at, v36_at, v28_at]
  rfl

/-- `Y` after the first step. -/
theorem v44_at (n : Fin 32) (i j : Fin 64) : res_main_v44 V0 (ix3 n i j) = (iter (covR V0 n) 1).1 i j := by
  unfold res_main_v44
  rw [rmm_at]
  simp only [v28_at, v43_at]
  rfl

/-- `Z` after the first step. -/
theorem v45_at (n : Fin 32) (i j : Fin 64) : res_main_v45 V0 (ix3 n i j) = (iter (covR V0 n) 1).2 i j := by
  unfold res_main_v45
  rw [rmm_at]
  simp only [v43_at, v36_at]
  rfl

end Cert.ReferenceIdeal.Bat

end
-- ==== Proof.RPart2.lean ====
/-
  The reference's Newton–Schulz steps two to six at the extended reals, batch entry by batch entry, from
  the pair after the first step.

  Each step names three arrays: the correction T = (3 I − Z Y) / 2 built from the previous pair, then
  Y T and T Z.  One lemma reads such a triple at an entry as `tee` and the two components of `step`
  of the previous pair's matrices; the five steps are then five instances of it, since
  `iter A (k + 1)` is `step (iter A k)` by definition.
-/
import proofs.«120856_j2628519985843_1_alg».proof.Proof.ROps

noncomputable section

namespace Cert.ReferenceIdeal.Bat

open Idealize.ShloMosaic Idealize.ShloMosaic.ValueIdx Idealize.ShloMosaic.TcCoe Idealize.ShloMosaic.StableHlo
open Cert.ReferenceIdeal Cert.ReferenceIdeal.Gen Cert.ReferenceIdeal.Value Cert.Whiten

/-- The batched correction `(3 E − Z Y) / 2` as one array. -/
private def teeR (E : FVec Ideal S1x64x64 .f32) (Z Y : FVec Ideal S32x64x64 .f32) : FVec Ideal S32x64x64 .f32 :=
  mulf (broadcastInDim S32x64x64 ![] bcast_S_S32x64x64 (constant S_ .f32 0x3F000000#32))
    (subf (broadcastInDim S32x64x64 ![0, 1, 2] bcast_S1x64x64_S32x64x64_0_1_2
            (mulf (broadcastInDim S1x64x64 ![] bcast_S_S1x64x64 (constant S_ .f32 0x40400000#32)) E))
          (Host.dotGeneral dot_S32x64x64_S32x64x64_S32x64x64_2_1_1_2_0_0 none Z Y))

section Step

variable (E : FVec Ideal S1x64x64 .f32) (Y Z : FVec Ideal S32x64x64 .f32) (s : Fin 32 → Mat × Mat)
  (hE : ∀ i j : Fin 64, E (ix3 (0 : Fin 1) i j) = eye i j)
  (hY : ∀ (n : Fin 32) (i j : Fin 64), Y (ix3 n i j) = (s n).1 i j)
  (hZ : ∀ (n : Fin 32) (i j : Fin 64), Z (ix3 n i j) = (s n).2 i j)

include hE hY hZ

/-- The correction at batch n, entry (i, j), is `tee Z Y` of the pair's matrices. -/
private theorem teeR_at (n : Fin 32) (i j : Fin 64) :
    teeR E Z Y (ix3 n i j) = tee (s n).2 (s n).1 i j := by
  unfold teeR
  refine (rtee_at E Z Y n i j).trans ?_
  unfold tee mm
  rw [hE]
  simp only [hZ, hY]

/-- `Y T` at batch n, entry (i, j), is the first component of the step. -/
private theorem stepY_at (n : Fin 32) (i j : Fin 64) :
    Host.dotGeneral dot_S32x64x64_S32x64x64_S32x64x64_2_1_1_2_0_0 none Y (teeR E Z Y) (ix3 n i j)
      = (step (s n)).1 i j := by
  refine (rmm_at Y (teeR E Z Y) n i j).trans ?_
  unfold step mm
  simp only [hY, teeR_at E Y Z s hE hY hZ]

/-- `T Z` at batch n, entry (i, j), is the second component of the step. -/
private theorem stepZ_at (n : Fin 32) (i j : Fin 64) :
    Host.dotGeneral dot_S32x64x64_S32x64x64_S32x64x64_2_1_1_2_0_0 none (teeR E Z Y) Z (ix3 n i j)
      = (step (s n)).2 i j := by
  refine (rmm_at (teeR E Z Y) Z n i j).trans ?_
  unfold step mm
  simp only [hZ, teeR_at E Y Z s hE hY hZ]

end Step

variable (V0 : Valuation τ sig (Elt Ideal)) (A : Fin 32 → Mat)
  (h35 : ∀ i j : Fin 64, res_main_v35 V0 (ix3 (0 : Fin 1) i j) = eye i j)
  (h44 : ∀ (n : Fin 32) (i j : Fin 64), res_main_v44 V0 (ix3 n i j) = (iter (A n) 1).1 i j)
  (h45 : ∀ (n : Fin 32) (i j : Fin 64), res_main_v45 V0 (ix3 n i j) = (iter (A n) 1).2 i j)

include h35 h44 h45

/-- `Y` after two steps: the previous `Y` times the correction. -/
private theorem v53_at (n : Fin 32) (i j : Fin 64) : res_main_v53 V0 (ix3 n i j) = (iter (A n) 2).1 i j := by
  unfold res_main_v53 res_main_v52
  exact stepY_at (res_main_v35 V0) (res_main_v44 V0) (res_main_v45 V0) (fun n => iter (A n) 1) h35 h44 h45 n i j

/-- `Z` after two steps: the correction times the previous `Z`. -/
private theorem v54_at (n : Fin 32) (i j : Fin 64) : res_main_v54 V0 (ix3 n i j) = (iter (A n) 2).2 i j := by
  unfold res_main_v54 res_main_v52
  exact stepZ_at (res_main_v35 V0) (res_main_v44 V0) (res_main_v45 V0) (fun n => iter (A n) 1) h35 h44 h45 n i j

/-- `Y` after three steps: the previous `Y` times the correction. -/
private theorem v62_at (n : Fin 32) (i j : Fin 64) : res_main_v62 V0 (ix3 n i j) = (iter (A n) 3).1 i j := by
  unfold res_main_v62 res_main_v61
  exact stepY_at (res_main_v35 V0) (res_main_v53 V0) (res_main_v54 V0) (fun n => iter (A n) 2) h35 (v53_at V0 A h35 h44 h45) (v54_at V0 A h35 h44 h45) n i j

/-- `Z` after three steps: the correction times the previous `Z`. -/
private theorem v63_at (n : Fin 32) (i j : Fin 64) : res_main_v63 V0 (ix3 n i j) = (iter (A n) 3).2 i j := by
  unfold res_main_v63 res_main_v61
  exact stepZ_at (res_main_v35 V0) (res_main_v53 V0) (res_main_v54 V0) (fun n => iter (A n) 2) h35 (v53_at V0 A h35 h44 h45) (v54_at V0 A h35 h44 h45) n i j

/-- `Y` after four steps: the previous `Y` times the correction. -/
private theorem v71_at (n : Fin 32) (i j : Fin 64) : res_main_v71 V0 (ix3 n i j) = (iter (A n) 4).1 i j := by
  unfold res_main_v71 res_main_v70
  exact stepY_at (res_main_v35 V0) (res_main_v62 V0) (res_main_v63 V0) (fun n => iter (A n) 3) h35 (v62_at V0 A h35 h44 h45) (v63_at V0 A h35 h44 h45) n i j

/-- `Z` after four steps: the correction times the previous `Z`. -/
private theorem v72_at (n : Fin 32) (i j : Fin 64) : res_main_v72 V0 (ix3 n i j) = (iter (A n) 4).2 i j := by
  unfold res_main_v72 res_main_v70
  exact stepZ_at (res_main_v35 V0) (res_main_v62 V0) (res_main_v63 V0) (fun n => iter (A n) 3) h35 (v62_at V0 A h35 h44 h45) (v63_at V0 A h35 h44 h45) n i j

/-- `Y` after five steps: the previous `Y` times the correction. -/
private theorem v80_at (n : Fin 32) (i j : Fin 64) : res_main_v80 V0 (ix3 n i j) = (iter (A n) 5).1 i j := by
  unfold res_main_v80 res_main_v79
  exact stepY_at (res_main_v35 V0) (res_main_v71 V0) (res_main_v72 V0) (fun n => iter (A n) 4) h35 (v71_at V0 A h35 h44 h45) (v72_at V0 A h35 h44 h45) n i j

/-- `Z` after five steps: the correction times the previous `Z`. -/
private theorem v81_at (n : Fin 32) (i j : Fin 64) : res_main_v81 V0 (ix3 n i j) = (iter (A n) 5).2 i j := by
  unfold res_main_v81 res_main_v79
  exact stepZ_at (res_main_v35 V0) (res_main_v71 V0) (res_main_v72 V0) (fun n => iter (A n) 4) h35 (v71_at V0 A h35 h44 h45) (v72_at V0 A h35 h44 h45) n i j

/-- `Y` after six steps. -/
theorem v89_at (n : Fin 32) (i j : Fin 64) : res_main_v89 V0 (ix3 n i j) = (iter (A n) 6).1 i j := by
  unfold res_main_v89 res_main_v88
  exact stepY_at (res_main_v35 V0) (res_main_v80 V0) (res_main_v81 V0) (fun n => iter (A n) 5) h35 (v80_at V0 A h35 h44 h45) (v81_at V0 A h35 h44 h45) n i j

/-- `Z` after six steps. -/
theorem v90_at (n : Fin 32) (i j : Fin 64) : res_main_v90 V0 (ix3 n i j) = (iter (A n) 6).2 i j := by
  unfold res_main_v90 res_main_v88
  exact stepZ_at (res_main_v35 V0) (res_main_v80 V0) (res_main_v81 V0) (fun n => iter (A n) 5) h35 (v80_at V0 A h35 h44 h45) (v81_at V0 A h35 h44 h45) n i j

end Cert.ReferenceIdeal.Bat

end
-- ==== Proof.RPart3.lean ====
/-
  The reference's Newton–Schulz steps seven to ten at the extended reals, the division by the square root of
  the norm, and the batched product with the centred array, batch entry by batch entry.
-/
import proofs.«120856_j2628519985843_1_alg».proof.Proof.ROps
import Idealize.ShloMosaic.Lib.StackMember
import Idealize.ShloMosaic.Lib.IdealHost
import Idealize.ShloMosaic.Lib.Pipeline.Value

noncomputable section

namespace Cert.ReferenceIdeal.Bat

open Idealize.ShloMosaic Idealize.ShloMosaic.ValueIdx Idealize.ShloMosaic.TcCoe Idealize.ShloMosaic.StableHlo
open Cert.ReferenceIdeal Cert.ReferenceIdeal.Gen Cert.ReferenceIdeal.Value Cert.Whiten

/-- The batched correction `(3 E − Z Y) / 2` as one array. -/
private def teeR (E : FVec Ideal S1x64x64 .f32) (Z Y : FVec Ideal S32x64x64 .f32) : FVec Ideal S32x64x64 .f32 :=
  mulf (broadcastInDim S32x64x64 ![] bcast_S_S32x64x64 (constant S_ .f32 0x3F000000#32))
    (subf (broadcastInDim S32x64x64 ![0, 1, 2] bcast_S1x64x64_S32x64x64_0_1_2
            (mulf (broadcastInDim S1x64x64 ![] bcast_S_S1x64x64 (constant S_ .f32 0x40400000#32)) E))
          (Host.dotGeneral dot_S32x64x64_S32x64x64_S32x64x64_2_1_1_2_0_0 none Z Y))

/-- The batched product of two stacks of 64 × 64 matrices as one array. -/
private def mmR (L R : FVec Ideal S32x64x64 .f32) : FVec Ideal S32x64x64 .f32 :=
  Host.dotGeneral dot_S32x64x64_S32x64x64_S32x64x64_2_1_1_2_0_0 none L R

/-- One Newton–Schulz step on arrays that read, batch entry by batch entry, as a pair of matrices: the correction
    reads as `tee`, and the two products as the two components of `step`. -/
private theorem step_at (E : FVec Ideal S1x64x64 .f32) (Y Z : FVec Ideal S32x64x64 .f32) (s : Fin 32 → Mat × Mat)
    (hE : ∀ i j : Fin 64, E (ix3 (0 : Fin 1) i j) = eye i j)
    (hY : ∀ (n : Fin 32) (i j : Fin 64), Y (ix3 n i j) = (s n).1 i j)
    (hZ : ∀ (n : Fin 32) (i j : Fin 64), Z (ix3 n i j) = (s n).2 i j) :
    (∀ (n : Fin 32) (i j : Fin 64), teeR E Z Y (ix3 n i j) = tee (s n).2 (s n).1 i j)
    ∧ (∀ (n : Fin 32) (i j : Fin 64), mmR Y (teeR E Z Y) (ix3 n i j) = (step (s n)).1 i j)
    ∧ (∀ (n : Fin 32) (i j : Fin 64), mmR (teeR E Z Y) Z (ix3 n i j) = (step (s n)).2 i j) := by
  have hT : ∀ (n : Fin 32) (i j : Fin 64), teeR E Z Y (ix3 n i j) = tee (s n).2 (s n).1 i j := by
    intro n i j
    refine (rtee_at E Z Y n i j).trans ?_
    rw [hE i j]
    unfold tee mm
    exact congrArg (fun x => cHalf * (c3 * eye i j - x))
      (Finset.sum_congr rfl fun k _ => by rw [hZ n i k, hY n k j])
  refine ⟨hT, ?_, ?_⟩
  · intro n i j
    refine (rmm_at Y (teeR E Z Y) n i j).trans ?_
    show _ = mm (s n).1 (tee (s n).2 (s n).1) i j
    unfold mm
    exact Finset.sum_congr rfl fun k _ => by rw [hY n i k, hT n k j]
  · intro n i j
    refine (rmm_at (teeR E Z Y) Z n i j).trans ?_
    show _ = mm (tee (s n).2 (s n).1) (s n).2 i j
    unfold mm
    exact Finset.sum_congr rfl fun k _ => by rw [hT n i k, hZ n k j]

section Names

variable (V0 : Valuation τ sig (Elt Ideal)) (A : Fin 32 → Mat)
  (h35 : ∀ i j : Fin 64, res_main_v35 V0 (ix3 (0 : Fin 1) i j) = eye i j)
  (h89 : ∀ (n : Fin 32) (i j : Fin 64), res_main_v89 V0 (ix3 n i j) = (iter (A n) 6).1 i j)
  (h90 : ∀ (n : Fin 32) (i j : Fin 64), res_main_v90 V0 (ix3 n i j) = (iter (A n) 6).2 i j)

include h35 h89 h90

/-- The seventh correction, from the sixth pair. -/
private theorem v97_at (n : Fin 32) (i j : Fin 64) :
    res_main_v97 V0 (ix3 n i j) = tee (iter (A n) 6).2 (iter (A n) 6).1 i j := by
  unfold res_main_v97
  exact (step_at (res_main_v35 V0) (res_main_v89 V0) (res_main_v90 V0) (fun n => iter (A n) 6) h35 h89 h90).1 n i j

/-- The seventh `Y`: the sixth `Y` times the seventh correction. -/
private theorem v98_at (n : Fin 32) (i j : Fin 64) :
    res_main_v98 V0 (ix3 n i j) = (iter (A n) 7).1 i j := by
  unfold res_main_v98 res_main_v97
  exact (step_at (res_main_v35 V0) (res_main_v89 V0) (res_main_v90 V0) (fun n => iter (A n) 6) h35 h89 h90).2.1 n i j

/-- The seventh `Z`: the seventh correction times the sixth `Z`. -/
private theorem v99_at (n : Fin 32) (i j : Fin 64) :
    res_main_v99 V0 (ix3 n i j) = (iter (A n) 7).2 i j := by
  unfold res_main_v99 res_main_v97
  exact (step_at (res_main_v35 V0) (res_main_v89 V0) (res_main_v90 V0) (fun n => iter (A n) 6) h35 h89 h90).2.2 n i j

/-- The eighth correction, from the seventh pair. -/
private theorem v106_at (n : Fin 32) (i j : Fin 64) :
    res_main_v106 V0 (ix3 n i j) = tee (iter (A n) 7).2 (iter (A n) 7).1 i j := by
  unfold res_main_v106
  exact (step_at (res_main_v35 V0) (res_main_v98 V0) (res_main_v99 V0) (fun n => iter (A n) 7) h35
    (v98_at V0 A h35 h89 h90) (v99_at V0 A h35 h89 h90)).1 n i j

/-- The eighth `Y`. -/
private theorem v107_at (n : Fin 32) (i j : Fin 64) :
    res_main_v107 V0 (ix3 n i j) = (iter (A n) 8).1 i j := by
  unfold res_main_v107 res_main_v106
  exact (step_at (res_main_v35 V0) (res_main_v98 V0) (res_main_v99 V0) (fun n => iter (A n) 7) h35
    (v98_at V0 A h35 h89 h90) (v99_at V0 A h35 h89 h90)).2.1 n i j

/-- The eighth `Z`. -/
private theorem v108_at (n : Fin 32) (i j : Fin 64) :
    res_main_v108 V0 (ix3 n i j) = (iter (A n) 8).2 i j := by
  unfold res_main_v108 res_main_v106
  exact (step_at (res_main_v35 V0) (res_main_v98 V0) (res_main_v99 V0) (fun n => iter (A n) 7) h35
    (v98_at V0 A h35 h89 h90) (v99_at V0 A h35 h89 h90)).2.2 n i j

/-- The ninth correction, from the eighth pair. -/
private theorem v115_at (n : Fin 32) (i j : Fin 64) :
    res_main_v115 V0 (ix3 n i j) = tee (iter (A n) 8).2 (iter (A n) 8).1 i j := by
  unfold res_main_v115
  exact (step_at (res_main_v35 V0) (res_main_v107 V0) (res_main_v108 V0) (fun n => iter (A n) 8) h35
    (v107_at V0 A h35 h89 h90) (v108_at V0 A h35 h89 h90)).1 n i j

/-- The ninth `Y`. -/
private theorem v116_at (n : Fin 32) (i j : Fin 64) :
    res_main_v116 V0 (ix3 n i j) = (iter (A n) 9).1 i j := by
  unfold res_main_v116 res_main_v115
  exact (step_at (res_main_v35 V0) (res_main_v107 V0) (res_main_v108 V0) (fun n => iter (A n) 8) h35
    (v107_at V0 A h35 h89 h90) (v108_at V0 A h35 h89 h90)).2.1 n i j

/-- The ninth `Z`. -/
private theorem v117_at (n : Fin 32) (i j : Fin 64) :
    res_main_v117 V0 (ix3 n i j) = (iter (A n) 9).2 i j := by
  unfold res_main_v117 res_main_v115
  exact (step_at (res_main_v35 V0) (res_main_v107 V0) (res_main_v108 V0) (fun n => iter (A n) 8) h35
    (v107_at V0 A h35 h89 h90) (v108_at V0 A h35 h89 h90)).2.2 n i j

/-- The tenth correction, from the ninth pair. -/
private theorem v124_at (n : Fin 32) (i j : Fin 64) :
    res_main_v124 V0 (ix3 n i j) = tee (iter (A n) 9).2 (iter (A n) 9).1 i j := by
  unfold res_main_v124
  exact (step_at (res_main_v35 V0) (res_main_v116 V0) (res_main_v117 V0) (fun n => iter (A n) 9) h35
    (v116_at V0 A h35 h89 h90) (v117_at V0 A h35 h89 h90)).1 n i j

/-- The tenth `Z`: the tenth correction times the ninth `Z`. -/
private theorem z10_at (n : Fin 32) (i j : Fin 64) :
    Host.dotGeneral (F := Ideal) (φ₁ := .f32) (φ₂ := .f32) dot_S32x64x64_S32x64x64_S32x64x64_2_1_1_2_0_0 none
        (res_main_v124 V0 : FVec Ideal S32x64x64 .f32) (res_main_v117 V0 : FVec Ideal S32x64x64 .f32) (ix3 n i j)
      = (iter (A n) 10).2 i j := by
  unfold res_main_v124
  exact (step_at (res_main_v35 V0) (res_main_v116 V0) (res_main_v117 V0) (fun n => iter (A n) 9) h35
    (v116_at V0 A h35 h89 h90) (v117_at V0 A h35 h89 h90)).2.2 n i j

end Names

/-- The batched 64 × 64 by 64 × 18432 product at batch n, row g, entry p: the sum over h of L n g h · R n h p. -/
private theorem rmmWide_at (L : FVec Ideal S32x64x64 .f32) (R : FVec Ideal S32x64x18432 .f32)
    (n : Fin 32) (g : Fin 64) (p : Fin 18432) :
    Host.dotGeneral dot_S32x64x64_S32x64x18432_S32x64x18432_2_1_1_2_0_0 none L R (ix3 n g p)
      = ∑ h : Fin 64, L (ix3 n g h) * R (ix3 n h p) :=
  StackMember.dotGeneral_stack_apply dot_S32x64x64_S32x64x18432_S32x64x18432_2_1_1_2_0_0_wf none L R n g p

/-- A 32 × 1 × 1 array broadcast to 32 × 64 × 64 reads, at (n, i, j), the operand at (n, 0, 0). -/
private theorem bcastNorm_at (x : FVec Ideal S32x1x1 .f32) (n : Fin 32) (i j : Fin 64) :
    broadcastInDim S32x64x64 ![0, 1, 2] bcast_S32x1x1_S32x64x64_0_1_2 x (ix3 n i j)
      = x (ix3 n (0 : Fin 1) (0 : Fin 1)) :=
  broadcastInDim_apply ![0, 1, 2] bcast_S32x1x1_S32x64x64_0_1_2 x (ix3 n i j) (ix3 n (0 : Fin 1) (0 : Fin 1)) (by
    intro a
    match a with
    | ⟨0, _⟩ =>
      show n.val = if (32 : ℕ) = 1 then 0 else n.val
      rw [if_neg (by decide)]
    | ⟨1, _⟩ =>
      show (0 : ℕ) = if (1 : ℕ) = 1 then 0 else i.val
      rw [if_pos rfl]
    | ⟨2, _⟩ =>
      show (0 : ℕ) = if (1 : ℕ) = 1 then 0 else j.val
      rw [if_pos rfl])

/-- The result before the closing reshapes, at batch n, row g, entry p. -/
theorem core_at (V0 : Valuation τ sig (Elt Ideal)) (A : Fin 32 → Mat) (Xc : Fin 32 → Blk) (r : Fin 32 → EReal)
    (h35 : ∀ i j : Fin 64, res_main_v35 V0 (ix3 (0 : Fin 1) i j) = eye i j)
    (h89 : ∀ (n : Fin 32) (i j : Fin 64), res_main_v89 V0 (ix3 n i j) = (iter (A n) 6).1 i j)
    (h90 : ∀ (n : Fin 32) (i j : Fin 64), res_main_v90 V0 (ix3 n i j) = (iter (A n) 6).2 i j)
    (h8 : ∀ (n : Fin 32) (g : Fin 64) (p : Fin 18432), res_main_v8 V0 (ix3 n g p) = Xc n g p)
    (h26 : ∀ n : Fin 32, res_main_v26 V0 (ix3 n (0 : Fin 1) (0 : Fin 1)) = r n)
    (n : Fin 32) (g : Fin 64) (p : Fin 18432) :
    core V0 (ix3 n g p)
      = ∑ h : Fin 64, Ideal.div ((iter (A n) 10).2 g h) (Ideal.sqrt (r n)) * Xc n h p := by
  unfold core
  refine (rmmWide_at _ _ n g p).trans ?_
  refine Finset.sum_congr rfl fun h _ => ?_
  rw [h8 n h p, hostDivf_apply, z10_at V0 A h35 h89 h90 n g h, bcastNorm_at]
  show Ideal.div _ (Ideal.sqrt (res_main_v26 V0 (ix3 n (0 : Fin 1) (0 : Fin 1)))) * _ = _
  rw [h26 n]

end Cert.ReferenceIdeal.Bat

end
-- ==== Proof.RBatch.lean ====
/-
  The reference's result before its closing reshapes is the whitening of every batch entry of the
  reshaped input: one Newton–Schulz step, then five, then four, batch entry by batch entry.
-/
import proofs.«120856_j2628519985843_1_alg».proof.Proof.RPart1
import proofs.«120856_j2628519985843_1_alg».proof.Proof.RPart2
import proofs.«120856_j2628519985843_1_alg».proof.Proof.RPart3

noncomputable section

namespace Cert.ReferenceIdeal.Bat

open Idealize.ShloMosaic Idealize.ShloMosaic.ValueIdx Idealize.ShloMosaic.TcCoe Idealize.ShloMosaic.StableHlo
open Cert.ReferenceIdeal Cert.ReferenceIdeal.Gen Cert.ReferenceIdeal.Value Cert.Whiten

theorem core_eq (V0 : Valuation τ sig (Elt Ideal)) : core V0 = whitenAll (res_main_v2 V0) := by
  funext idx
  obtain ⟨n, g, p, rfl⟩ : ∃ (n : Fin 32) (g : Fin 64) (p : Fin 18432), idx = ix3 n g p :=
    ⟨idx 0, idx 1, idx 2, eq_ix3 idx⟩
  rw [whitenAll_apply]
  refine (core_at V0 (covR V0) (fun n => centre (rowsR V0 n)) (fun n => nrm (covR V0 n)) (v35_at V0)
    (v89_at V0 (covR V0) (v35_at V0) (v44_at V0) (v45_at V0))
    (v90_at V0 (covR V0) (v35_at V0) (v44_at V0) (v45_at V0))
    (v8_at V0) (v26_at V0) n g p).trans ?_
  rfl

end Cert.ReferenceIdeal.Bat

end
-- ==== Proof.RTail.lean ====
/-
  The reference program's run at the extended reals with its result named: the closing reshapes, scale and
  shift applied to the result before them, and the reshaped input as the opening reshapes of the argument.
-/
import proofs.«120856_j2628519985843_1_alg».proof.Proof.ROps

noncomputable section

namespace Cert.ReferenceIdeal.Bat

open Idealize.ShloMosaic Idealize.ShloMosaic.ValueIdx Idealize.ShloMosaic.TcCoe Idealize.ShloMosaic.StableHlo Idealize.SL.Sem
open Cert.ReferenceIdeal Cert.ReferenceIdeal.Gen Cert.ReferenceIdeal.Value Cert.Whiten

/-- The reshapes that open the program: [32, 512, 48, 48] to [32, 64, 18432], group-major. -/
def headR (x : FVec Ideal S32x512x48x48 .f32) : FVec Ideal S32x64x18432 .f32 :=
  shapeCast _ (transpose S32x64x8x48x48 [0, 2, 1, 3, 4] (shapeCast _ x shapeCasts_S32x512x48x48_S32x8x64x48x48)
    transposes_S32x8x64x48x48_S32x64x8x48x48_0_2_1_3_4) shapeCasts_S32x64x8x48x48_S32x64x18432

/-- The reshapes that close it, then the per-channel scale and shift. -/
def tailR (y : FVec Ideal S32x64x18432 .f32) (w b : FVec Ideal S1x512x1x1 .f32) : FVec Ideal S32x512x48x48 .f32 :=
  addf (mulf (shapeCast _ (transpose S32x8x64x48x48 [0, 2, 1, 3, 4] (shapeCast _ y shapeCasts_S32x64x18432_S32x64x8x48x48)
      transposes_S32x64x8x48x48_S32x8x64x48x48_0_2_1_3_4) shapeCasts_S32x8x64x48x48_S32x512x48x48)
    (broadcastInDim S32x512x48x48 ![0, 1, 2, 3] bcast_S1x512x1x1_S32x512x48x48_0_1_2_3 w))
    (broadcastInDim S32x512x48x48 ![0, 1, 2, 3] bcast_S1x512x1x1_S32x512x48x48_0_1_2_3 b)

/-- The reshaped input is the opening reshapes of the first argument. -/
theorem v2_eq (V0 : Valuation τ sig (Elt Ideal)) : res_main_v2 V0 = headR (V0 (Proc.devRef .tc main_arg0)) := rfl

/-- Every weakly fair execution ends with the result at the closing reshapes of `core` and the arguments unchanged. -/
theorem run_tail (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v137)
          = tailR (core (launchContents m c)) ((launchContents m c) (Proc.devRef .tc main_arg1))
              ((launchContents m c) (Proc.devRef .tc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.ReferenceIdeal.Bat

end
-- ==== Proof.lean ====
/-
  The kernel whitens each of the 32 batch entries on its own grid point: it centres the entry's 64 rows,
  forms their covariance with ε on the diagonal, runs ten Newton–Schulz steps for the inverse square root
  started from the covariance over its Frobenius norm, rescales, and multiplies the centred rows. The
  reference does the same on all 32 entries at once with batched products. Both reshape the input the
  same way before, and reshape, scale and shift the same way after.

  Index by index both results are one function of the argument (Proof/Spec.lean): on the kernel's side the
  value a grid point stores is read off the generated frame, block by block; on the reference's side the
  generated run's named values are read batch entry by batch entry. The only law used between the two
  spellings is the regrouping of a finite sum (the squared entries summed row by row, or all at once);
  no precondition is needed for it. Nothing was rewritten by the idealization, so that claim is trivial.
-/
import proofs.«120856_j2628519985843_1_alg».proof.Defs
import proofs.«120856_j2628519985843_1_alg».proof.Proof.Gen.Kernel
import proofs.«120856_j2628519985843_1_alg».proof.Proof.Gen.Kernel.Skeleton
import proofs.«120856_j2628519985843_1_alg».proof.Proof.Gen.Kernel.Launch
import proofs.«120856_j2628519985843_1_alg».proof.Proof.Gen.Kernel.Points
import proofs.«120856_j2628519985843_1_alg».proof.Proof.Gen.Kernel.Frame
import proofs.«120856_j2628519985843_1_alg».proof.Proof.Gen.KernelIdeal
import proofs.«120856_j2628519985843_1_alg».proof.Proof.Gen.KernelIdeal.Skeleton
import proofs.«120856_j2628519985843_1_alg».proof.Proof.Gen.KernelIdeal.Launch
import proofs.«120856_j2628519985843_1_alg».proof.Proof.Gen.KernelIdeal.Points
import proofs.«120856_j2628519985843_1_alg».proof.Proof.Gen.KernelIdeal.Frame
import proofs.«120856_j2628519985843_1_alg».proof.Proof.Gen.ReferenceIdeal
import proofs.«120856_j2628519985843_1_alg».proof.Proof.Gen.ReferenceIdeal.Run
import proofs.«120856_j2628519985843_1_alg».proof.Proof.Gen.Pre_finite_inputs
import proofs.«120856_j2628519985843_1_alg».proof.Proof.KArray
import proofs.«120856_j2628519985843_1_alg».proof.Proof.RBatch
import proofs.«120856_j2628519985843_1_alg».proof.Proof.RTail
import Idealize.ShloMosaic.Adequacy
import Idealize.ShloMosaic.Init

noncomputable section

namespace Cert.Proof

open Idealize.ShloMosaic Idealize.ShloMosaic.TcCoe Idealize.SL.Sem

/-- The two programs' opening and closing reshapes are the same operations on the same shapes. -/
theorem tails_eq (x : FVec Ideal Cert.KernelIdeal.S32x512x48x48 .f32) (w b : FVec Ideal Cert.KernelIdeal.S1x512x1x1 .f32) :
    Cert.ReferenceIdeal.Bat.tailR (Cert.Whiten.whitenAll (Cert.ReferenceIdeal.Bat.headR x)) w b
      = Cert.KernelIdeal.Arr.tail (Cert.Whiten.whitenAll (Cert.KernelIdeal.Arr.head x)) w b := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the same array: the closing reshapes of the
    whitening of every batch entry of the reshaped first argument, scaled and shifted by the other two. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Bat.run_tail m' ρ')
  rw [Cert.ReferenceIdeal.Bat.core_eq, Cert.ReferenceIdeal.Bat.v2_eq]
  show Cert.ReferenceIdeal.Bat.tailR (Cert.Whiten.whitenAll (Cert.ReferenceIdeal.Bat.headR
      (m' ((c.tc : Thread Cert.ReferenceIdeal.nD Cert.ReferenceIdeal.τ).loc Cert.ReferenceIdeal.main_arg0))))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [(hagree c).1, (hagree c).2.1, (hagree c).2.2]
  exact tails_eq _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
